-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128 : Shape := ⟨3, ![8, 256, 128]⟩
abbrev S8x256x256 : Shape := ⟨3, ![8, 256, 256]⟩
abbrev S128x128 : Shape := ⟨2, ![128, 128]⟩
abbrev S128 : Shape := ⟨1, ![128]⟩
abbrev S384x128 : Shape := ⟨2, ![384, 128]⟩
abbrev S384 : Shape := ⟨1, ![384]⟩
abbrev S_ : Shape := ⟨0, ![]⟩

class Facts : Prop where
  bcast_S_S8x256x128 : S_.BroadcastsInDim S8x256x128 (![] : Fin 0 → Fin S8x256x128.rank)
  reducesTo_S8x256x128_S_d0_1_2 : S8x256x128.ReducesTo [0, 1, 2] S_
  h_S_ : 0 < S_.numel
  bcast_S_S8x256x256 : S_.BroadcastsInDim S8x256x256 (![] : Fin 0 → Fin S8x256x256.rank)
  reducesTo_S8x256x256_S_d0_1_2 : S8x256x256.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part3 {F : FTy → Type} [FloatOps F] (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  main_v53

def fn_part2 {F : FTy → Type} [FloatOps F] (main_arg7 : FVec F S384x128 .f32) (main_arg8 : FVec F S384x128 .f32) (main_arg9 : FVec F S384 .f32) (main_arg10 : FVec F S384 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S384x128 .f32 := Host.absf main_arg8
  let main_cst_14 : FVec F S_ .f32 := constant S_ .f32 0x7F800000#32
  let main_v40 : FVec F S384x128 .f32 := broadcastInDim S384x128 ![] bcast_S_S384x128 main_cst_14
  let main_v41 : IVec S384x128 1 := cmpf .olt main_v39 main_v40
  let main_c_15 : IVec S_ 1 := constantI S_ 1 1#1
  let main_v42 : IVec S_ 1 := (fun x v => Host.reduce IntOp.andi x v reducesTo_S384x128_S_d0_1 h_S_) main_v41 main_c_15
  let main_v43 : IVec S_ 1 := andi main_v38 main_v42
  let main_v44 : FVec F S384 .f32 := Host.absf main_arg9
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : FVec F S384 .f32 := Host.absf main_arg10
  let main_cst_18 : FVec F S_ .f32 := constant S_ .f32 0x7F800000#32
  let main_v50 : FVec F S384 .f32 := broadcastInDim S384 ![] bcast_S_S384 main_cst_18
  fn_part3 (F := F) main_v48 main_v49 main_v50

def fn_part1 {F : FTy → Type} [FloatOps F] (main_arg4 : FVec F S128 .f32) (main_arg5 : FVec F S128x128 .f32) (main_arg6 : FVec F S128 .f32) (main_arg7 : FVec F S384x128 .f32) (main_arg8 : FVec F S384x128 .f32) (main_arg9 : FVec F S384 .f32) (main_arg10 : FVec F S384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x256x128 .f32) (main_arg1 : FVec F S8x256x128 .f32) (main_arg2 : FVec F S8x256x256 .f32) (main_arg3 : FVec F S128x128 .f32) (main_arg4 : FVec F S128 .f32) (main_arg5 : FVec F S128x128 .f32) (main_arg6 : FVec F S128 .f32) (main_arg7 : FVec F S384x128 .f32) (main_arg8 : FVec F S384x128 .f32) (main_arg9 : FVec F S384 .f32) (main_arg10 : FVec F S384 .f32) : IVec S_ 1 :=
  let main_v0 : FVec F S8x256x128 .f32 := Host.absf main_arg0
  let main_cst : FVec F S_ .f32 := constant S_ .f32 0x7F800000#32
  let main_v1 : FVec F S8x256x128 .f32 := broadcastInDim S8x256x128 ![] bcast_S_S8x256x128 main_cst
  let main_v2 : IVec S8x256x128 1 := cmpf .olt main_v0 main_v1
  let main_c : IVec S_ 1 := constantI S_ 1 1#1
  let main_v3 : IVec S_ 1 := (fun x v => Host.reduce IntOp.andi x v reducesTo_S8x256x128_S_d0_1_2 h_S_) main_v2 main_c
  let main_v4 : FVec F S8x256x128 .f32 := Host.absf main_arg1
  let main_cst_0 : FVec F S_ .f32 := constant S_ .f32 0x7F800000#32
  let main_v5 : FVec F S8x256x128 .f32 := broadcastInDim S8x256x128 ![] bcast_S_S8x256x128 main_cst_0
  let main_v6 : IVec S8x256x128 1 := cmpf .olt main_v4 main_v5
  let main_c_1 : IVec S_ 1 := constantI S_ 1 1#1
  let main_v7 : IVec S_ 1 := (fun x v => Host.reduce IntOp.andi x v reducesTo_S8x256x128_S_d0_1_2 h_S_) main_v6 main_c_1
  let main_v8 : IVec S_ 1 := andi main_v3 main_v7
  let main_v9 : FVec F S8x256x256 .f32 := Host.absf main_arg2
  let main_cst_2 : FVec F S_ .f32 := constant S_ .f32 0x7F800000#32
  let main_v10 : FVec F S8x256x256 .f32 := broadcastInDim S8x256x256 ![] bcast_S_S8x256x256 main_cst_2
  let main_v11 : IVec S8x256x256 1 := cmpf .olt main_v9 main_v10
  let main_c_3 : IVec S_ 1 := constantI S_ 1 1#1
  let main_v12 : IVec S_ 1 := (fun x v => Host.reduce IntOp.andi x v reducesTo_S8x256x256_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S8x256x128 : Shape := ⟨3, ![8, 256, 128]⟩
abbrev S8x256x256 : Shape := ⟨3, ![8, 256, 256]⟩
abbrev S128x128 : Shape := ⟨2, ![128, 128]⟩
abbrev S128 : Shape := ⟨1, ![128]⟩
abbrev S384x128 : Shape := ⟨2, ![384, 128]⟩
abbrev S384 : Shape := ⟨1, ![384]⟩
abbrev S1x64x128 : Shape := ⟨3, ![1, 64, 128]⟩
abbrev S1x256x128 : Shape := ⟨3, ![1, 256, 128]⟩
abbrev S1x64x256 : Shape := ⟨3, ![1, 64, 256]⟩
abbrev S64x128 : Shape := ⟨2, ![64, 128]⟩
abbrev S256x128 : Shape := ⟨2, ![256, 128]⟩
abbrev S64x256 : Shape := ⟨2, ![64, 256]⟩
abbrev S1x128 : Shape := ⟨2, ![1, 128]⟩
abbrev S128x256 : Shape := ⟨2, ![128, 256]⟩
abbrev S1x128x256 : Shape := ⟨3, ![1, 128, 256]⟩
abbrev S64x1x256 : Shape := ⟨3, ![64, 1, 256]⟩
abbrev S64x128x256 : Shape := ⟨3, ![64, 128, 256]⟩
abbrev S128x384 : Shape := ⟨2, ![128, 384]⟩
abbrev S64x384 : Shape := ⟨2, ![64, 384]⟩
abbrev S1x384 : Shape := ⟨2, ![1, 384]⟩

abbrev nBuf : Space → Nat
  | .hbm => 12
  | .vmem => 16
  | .smem => 0
  | _ => 0

abbrev bufTy : (tb : Table) → Fin (tcTables nBuf tb) → BufTy
  | .hbm, ⟨0, _⟩ => ⟨S8x256x128, .f32⟩
  | .hbm, ⟨1, _⟩ => ⟨S8x256x128, .f32⟩
  | .hbm, ⟨2, _⟩ => ⟨S8x256x256, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S384x128, .f32⟩
  | .hbm, ⟨9, _⟩ => ⟨S384, .f32⟩
  | .hbm, ⟨10, _⟩ => ⟨S384, .f32⟩
  | .hbm, ⟨11, _⟩ => ⟨S8x256x128, .f32⟩
  | .local _ .vmem, ⟨0, _⟩ => ⟨S1x64x128, .f32⟩
  | .local _ .vmem, ⟨1, _⟩ => ⟨S1x64x128, .f32⟩
  | .local _ .vmem, ⟨2, _⟩ => ⟨S1x256x128, .f32⟩
  | .local _ .vmem, ⟨3, _⟩ => ⟨S1x256x128, .f32⟩
  | .local _ .vmem, ⟨4, _⟩ => ⟨S1x64x256, .f32⟩
  | .local _ .vmem, ⟨5, _⟩ => ⟨S1x64x256, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S384x128, .f32⟩
  | .local _ .vmem, ⟨11, _⟩ => ⟨S384x128, .f32⟩
  | .local _ .vmem, ⟨12, _⟩ => ⟨S384, .f32⟩
  | .local _ .vmem, ⟨13, _⟩ => ⟨S384, .f32⟩
  | .local _ .vmem, ⟨14, _⟩ => ⟨S1x64x128, .f32⟩
  | .local _ .vmem, ⟨15, _⟩ => ⟨S1x64x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S384x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  inb_S384x128_S384x128_0_0 : ∀ a, (![0, 0] : Fin 2 → Nat) a + S384x128.size a ≤ S384x128.size a
  h_S384x128 : 0 < S384x128.numel
  inb_S384_S384_0 : ∀ a, (![0] : Fin 1 → Nat) a + S384.size a ≤ S384.size a
  h_S384 : 0 < S384.numel
  transposes_S128x128_p1_0_S128x128 : S128x128.Transposes [1, 0] S128x128
  shapeCasts_S128_S1x128 : S128.ShapeCasts S1x128
  broadcasts_S1x128_S64x128 : S1x128.Broadcasts S64x128
  broadcasts_S1x128_S256x128 : S1x128.Broadcasts S256x128
  transposes_S256x128_p1_0_S128x256 : S256x128.Transposes [1, 0] S128x256
  shapeCasts_S128x256_S1x128x256 : S128x256.ShapeCasts S1x128x256
  shapeCasts_S64x256_S64x1x256 : S64x256.ShapeCasts S64x1x256
  broadcasts_S1x128x256_S64x128x256 : S1x128x256.Broadcasts S64x128x256
  broadcasts_S64x1x256_S64x128x256 : S64x1x256.Broadcasts S64x128x256
  reduces_S64x128x256_S64x128 : S64x128x256.Reduces [2] S64x128
  transposes_S384x128_p1_0_S128x384 : S384x128.Transposes [1, 0] S128x384
  shapeCasts_S384_S1x384 : S384.ShapeCasts S1x384
  broadcasts_S1x384_S64x384 : S1x384.Broadcasts S64x384
  slices_S64x384_o0_0_S64x128 : S64x384.Slices ![0, 0] S64x128
  slices_S64x384_o0_128_S64x128 : S64x384.Slices ![0, 128] S64x128
  slices_S64x384_o0_256_S64x128 : S64x384.Slices ![0, 256] S64x128
  shapeCasts_S64x128_S1x64x128 : S64x128.ShapeCasts S1x64x128
  dot_S64x128_S128x128_S64x128_1_0_0_1_n_n_wf : DotDims.WF S64x128 S128x128 S64x128 [1] [0] [0] [1] [] []
  dot_S256x128_S128x128_S256x128_1_0_0_1_n_n_wf : DotDims.WF S256x128 S128x128 S256x128 [1] [0] [0] [1] [] []
  dot_S64x128_S128x384_S64x384_1_0_0_1_n_n_wf : DotDims.WF S64x128 S128x384 S64x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S8x256x128.size a
  hwx0_0 : ∀ i : grid0.Coords, EltTy.bits .f32 = 32 ∨ (Rect.block (s := S8x256x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S8x256x128.size a
  hwx0_1 : ∀ i : grid0.Coords, EltTy.bits .f32 = 32 ∨ (Rect.block (s := S8x256x128) S1x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256.size a ≤ S8x256x256.size a
  hwx0_2 : ∀ i : grid0.Coords, EltTy.bits .f32 = 32 ∨ (Rect.block (s := S8x256x256) S1x64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384x128.size a ≤ S384x128.size a
  hwx0_7 : ∀ i : grid0.Coords, EltTy.bits .f32 = 32 ∨ (Rect.block (s := S384x128) S384x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S384x128.size a ≤ S384x128.size a
  hwx0_8 : ∀ i : grid0.Coords, EltTy.bits .f32 = 32 ∨ (Rect.block (s := S384x128) S384x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S384.size a ≤ S384.size a
  hwx0_9 : ∀ i : grid0.Coords, EltTy.bits .f32 = 32 ∨ (Rect.block (s := S384) S384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S384.size a ≤ S384.size a
  hwx0_10 : ∀ i : grid0.Coords, EltTy.bits .f32 = 32 ∨ (Rect.block (s := S384) S384.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x64x128.size a ≤ S8x256x128.size a
  hwx0_11 : ∀ i : grid0.Coords, EltTy.bits .f32 = 32 ∨ (Rect.block (s := S8x256x128) S1x64x128.size (cc0_transform_11 i) (hinb0_11 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S64x128_S128x384_S64x384_1_0_0_1_n_n : DotDims S64x128 S128x384 S64x384 where
  lhsContracting := [1]
  rhsContracting := [0]
  lhsNonContracting := [0]
  rhsNonContracting := [1]
  lhsBatch := []
  rhsBatch := []
  wf := dot_S64x128_S128x384_S64x384_1_0_0_1_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S384x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S384x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1x64x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x256x128 : Shape := ⟨3, ![8, 256, 128]⟩
abbrev S8x256x256 : Shape := ⟨3, ![8, 256, 256]⟩
abbrev S128x128 : Shape := ⟨2, ![128, 128]⟩
abbrev S128 : Shape := ⟨1, ![128]⟩
abbrev S384x128 : Shape := ⟨2, ![384, 128]⟩
abbrev S384 : Shape := ⟨1, ![384]⟩
abbrev S1x1x128 : Shape := ⟨3, ![1, 1, 128]⟩
abbrev S8x1x256x128 : Shape := ⟨4, ![8, 1, 256, 128]⟩
abbrev S8x256x256x1 : Shape := ⟨4, ![8, 256, 256, 1]⟩
abbrev S8x256x256x128 : Shape := ⟨4, ![8, 256, 256, 128]⟩
abbrev S_ : Shape := ⟨0, ![]⟩
abbrev S2048x128 : Shape := ⟨2, ![2048, 128]⟩
abbrev S128x384 : Shape := ⟨2, ![128, 384]⟩
abbrev S2048x384 : Shape := ⟨2, ![2048, 384]⟩
abbrev S1x384 : Shape := ⟨2, ![1, 384]⟩

abbrev nBuf : Space → Nat
  | .hbm => 76
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S8x256x128, .f32⟩
  | .hbm, ⟨2, _⟩ => ⟨S8x256x256, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S384x128, .f32⟩
  | .hbm, ⟨8, _⟩ => ⟨S384x128, .f32⟩
  | .hbm, ⟨9, _⟩ => ⟨S384, .f32⟩
  | .hbm, ⟨10, _⟩ => ⟨S384, .f32⟩
  | .hbm, ⟨11, _⟩ => ⟨S8x256x128, .f32⟩
  | .hbm, ⟨12, _⟩ => ⟨S1x1x128, .f32⟩
  | .hbm, ⟨13, _⟩ => ⟨S8x256x128, .f32⟩
  | .hbm, ⟨14, _⟩ => ⟨S8x256x128, .f32⟩
  | .hbm, ⟨15, _⟩ => ⟨S8x256x128, .f32⟩
  | .hbm, ⟨16, _⟩ => ⟨S1x1x128, .f32⟩
  | .hbm, ⟨17, _⟩ => ⟨S8x256x128, .f32⟩
  | .hbm, ⟨18, _⟩ => ⟨S8x256x128, .f32⟩
  | .hbm, ⟨19, _⟩ => ⟨S8x1x256x128, .f32⟩
  | .hbm, ⟨20, _⟩ => ⟨S8x256x256x1, .f32⟩
  | .hbm, ⟨21, _⟩ => ⟨S8x256x256x128, .f32⟩
  | .hbm, ⟨22, _⟩ => ⟨S8x256x256x128, .f32⟩
  | .hbm, ⟨23, _⟩ => ⟨S8x256x256x128, .f32⟩
  | .hbm, ⟨24, _⟩ => ⟨S_, .f32⟩
  | .hbm, ⟨25, _⟩ => ⟨S8x256x128, .f32⟩
  | .hbm, ⟨26, _⟩ => ⟨S8x256x128, .f32⟩
  | .hbm, ⟨27, _⟩ => ⟨S_, .f32⟩
  | .hbm, ⟨28, _⟩ => ⟨S8x256x128, .f32⟩
  | .hbm, ⟨29, _⟩ => ⟨S8x256x128, .f32⟩
  | .hbm, ⟨30, _⟩ => ⟨S2048x128, .f32⟩
  | .hbm, ⟨31, _⟩ => ⟨S2048x128, .f32⟩
  | .hbm, ⟨32, _⟩ => ⟨S128x384, .f32⟩
  | .hbm, ⟨33, _⟩ => ⟨S2048x384, .f32⟩
  | .hbm, ⟨34, _⟩ => ⟨S1x384, .f32⟩
  | .hbm, ⟨35, _⟩ => ⟨S2048x384, .f32⟩
  | .hbm, ⟨36, _⟩ => ⟨S2048x384, .f32⟩
  | .hbm, ⟨37, _⟩ => ⟨S128x384, .f32⟩
  | .hbm, ⟨38, _⟩ => ⟨S2048x384, .f32⟩
  | .hbm, ⟨39, _⟩ => ⟨S1x384, .f32⟩
  | .hbm, ⟨40, _⟩ => ⟨S2048x384, .f32⟩
  | .hbm, ⟨41, _⟩ => ⟨S2048x384, .f32⟩
  | .hbm, ⟨42, _⟩ => ⟨S2048x128, .f32⟩
  | .hbm, ⟨43, _⟩ => ⟨S2048x128, .f32⟩
  | .hbm, ⟨44, _⟩ => ⟨S2048x128, .f32⟩
  | .hbm, ⟨45, _⟩ => ⟨S2048x128, .f32⟩
  | .hbm, ⟨46, _⟩ => ⟨S2048x128, .f32⟩
  | .hbm, ⟨47, _⟩ => ⟨S2048x128, .f32⟩
  | .hbm, ⟨48, _⟩ => ⟨S2048x128, .f32⟩
  | .hbm, ⟨49, _⟩ => ⟨S2048x128, .f32⟩
  | .hbm, ⟨50, _⟩ => ⟨S2048x128, .f32⟩
  | .hbm, ⟨51, _⟩ => ⟨S_, .f32⟩
  | .hbm, ⟨52, _⟩ => ⟨S2048x128, .f32⟩
  | .hbm, ⟨53, _⟩ => ⟨S2048x128, .f32⟩
  | .hbm, ⟨54, _⟩ => ⟨S_, .f32⟩
  | .hbm, ⟨55, _⟩ => ⟨S2048x128, .f32⟩
  | .hbm, ⟨56, _⟩ => ⟨S2048x128, .f32⟩
  | .hbm, ⟨57, _⟩ => ⟨S2048x128, .f32⟩
  | .hbm, ⟨58, _⟩ => ⟨S2048x128, .f32⟩
  | .hbm, ⟨59, _⟩ => ⟨S2048x128, .f32⟩
  | .hbm, ⟨60, _⟩ => ⟨S_, .f32⟩
  | .hbm, ⟨61, _⟩ => ⟨S2048x128, .f32⟩
  | .hbm, ⟨62, _⟩ => ⟨S2048x128, .f32⟩
  | .hbm, ⟨63, _⟩ => ⟨S_, .f32⟩
  | .hbm, ⟨64, _⟩ => ⟨S2048x128, .f32⟩
  | .hbm, ⟨65, _⟩ => ⟨S2048x128, .f32⟩
  | .hbm, ⟨66, _⟩ => ⟨S2048x128, .f32⟩
  | .hbm, ⟨67, _⟩ => ⟨S2048x128, .f32⟩
  | .hbm, ⟨68, _⟩ => ⟨S2048x128, .f32⟩
  | .hbm, ⟨69, _⟩ => ⟨S_, .f32⟩
  | .hbm, ⟨70, _⟩ => ⟨S2048x128, .f32⟩
  | .hbm, ⟨71, _⟩ => ⟨S2048x128, .f32⟩
  | .hbm, ⟨72, _⟩ => ⟨S2048x128, .f32⟩
  | .hbm, ⟨73, _⟩ => ⟨S2048x128, .f32⟩
  | .hbm, ⟨74, _⟩ => ⟨S2048x128, .f32⟩
  | .hbm, ⟨75, _⟩ => ⟨S8x256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_call0_cst : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_0 : Ref sig .tc := ⟨.hbm, 51, rfl⟩
abbrev main_v37 : Ref sig .tc := ⟨.hbm, 52, rfl⟩
abbrev main_v38 : Ref sig .tc := ⟨.hbm, 53, rfl⟩
abbrev main_cst_1 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_2 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_4 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x256x128_0_1_2 : S1x1x128.BroadcastsInDim S8x256x128 (![0, 1, 2] : Fin 3 → Fin S8x256x128.rank)
  bcast_S8x256x128_S8x1x256x128_0_2_3 : S8x256x128.BroadcastsInDim S8x1x256x128 (![0, 2, 3] : Fin 3 → Fin S8x1x256x128.rank)
  bcast_S8x256x256_S8x256x256x1_0_1_2 : S8x256x256.BroadcastsInDim S8x256x256x1 (![0, 1, 2] : Fin 3 → Fin S8x256x256x1.rank)
  bcast_S8x1x256x128_S8x256x256x128_0_1_2_3 : S8x1x256x128.BroadcastsInDim S8x256x256x128 (![0, 1, 2, 3] : Fin 4 → Fin S8x256x256x128.rank)
  bcast_S8x256x256x1_S8x256x256x128_0_1_2_3 : S8x256x256x1.BroadcastsInDim S8x256x256x128 (![0, 1, 2, 3] : Fin 4 → Fin S8x256x256x128.rank)
  reducesTo_S8x256x256x128_S8x256x128_d2 : S8x256x256x128.ReducesTo [2] S8x256x128
  h_S_ : 0 < S_.numel
  bcast_S_S8x256x128 : S_.BroadcastsInDim S8x256x128 (![] : Fin 0 → Fin S8x256x128.rank)
  shapeCasts_S8x256x128_S2048x128 : S8x256x128.ShapeCasts S2048x128
  transposes_S384x128_S128x384_1_0 : S384x128.Transposes [1, 0] S128x384
  bcast_S384_S1x384_1 : S384.BroadcastsInDim S1x384 (![1] : Fin 1 → Fin S1x384.rank)
  bcast_S1x384_S2048x384_0_1 : S1x384.BroadcastsInDim S2048x384 (![0, 1] : Fin 2 → Fin S2048x384.rank)
  slices_S2048x384_S2048x128_0_0 : S2048x384.Slices ![0, 0] S2048x128
  slices_S2048x384_S2048x128_0_128 : S2048x384.Slices ![0, 128] S2048x128
  slices_S2048x384_S2048x128_0_256 : S2048x384.Slices ![0, 256] S2048x128
  bcast_S_S2048x128 : S_.BroadcastsInDim S2048x128 (![] : Fin 0 → Fin S2048x128.rank)
  shapeCasts_S2048x128_S8x256x128 : S2048x128.ShapeCasts S8x256x128
  dot_S8x256x128_S128x128_S8x256x128_2_1_01_0_n_n_wf : DotDims.WF S8x256x128 S128x128 S8x256x128 [2] [1] [0, 1] [0] [] []
  dot_S2048x128_S128x384_S2048x384_1_0_0_1_n_n_wf : DotDims.WF S2048x128 S128x384 S2048x384 [1] [0] [0] [1] [] []

variable [Facts₀]

def dot_S8x256x128_S128x128_S8x256x128_2_1_01_0_n_n : DotDims S8x256x128 S128x128 S8x256x128 where
  lhsContracting := [2]
  rhsContracting := [1]
  lhsNonContracting := [0, 1]
  rhsNonContracting := [0]
  lhsBatch := []
  rhsBatch := []
  wf := dot_S8x256x128_S128x128_S8x256x128_2_1_01_0_n_n_wf
def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf

class Facts : Prop extends Facts₀ where

variable [Facts]
-- ==== Proof.Spec.lean ====
/-
  One node's update in a message-passing layer followed by a gated recurrent cell, as a function of rows.

  For one node the inputs are its own feature row `h` (128 features), the feature rows `nb j` of the 256 candidate
  neighbours, and the edge weights `e j` towards them.  With two affine maps `W` and `M` the node receives
    m₁ g = (∑ f, h f · W g f) + bW g,
    m₂ g = max over the neighbours j, starting from −∞, of ((∑ f, nb j f · M g f) + bM g) · e j,
    x g  = max (m₁ g + m₂ g) 0,
  and the gated recurrent cell with input `x` and hidden state `h` returns, with the three gate blocks of its 384
  weight rows (reset at g, update at 128 + g, candidate at 256 + g),
    r = σ (gi g + gh g),  z = σ (gi (128+g) + gh (128+g)),  n = tanh (gi (256+g) + r · gh (256+g)),
    out g = (1 − z) · n + z · h g,
  where gi k = (∑ f, x f · Wi k f) + bi k and gh k = (∑ f, h f · Wh k f) + bh k.
  Every operation is the exact one on the extended reals; the three constants −∞, 0 and 1 are kept as the
  single-precision words both programs write them with.  `nodeUpdate` is this function of rows, and `layer` applies it
  at every (batch, node, feature) index of the argument arrays.
-/
import Idealize.ShloMosaic.PureOps.Ideal
import Idealize.ShloMosaic.Lib.ValueIdx

noncomputable section

open scoped BigOperators

namespace GraphGru

open Idealize.ShloMosaic Idealize.ShloMosaic.ValueIdx

/-- The word of −∞, from which both programs start the neighbour maximum. -/
abbrev negInf : EReal := Ideal.ofBits .f32 0xFF800000#32
/-- The word of 0, against which the rectifier compares. -/
abbrev zeroW : EReal := Ideal.ofBits .f32 0x00000000#32
/-- The word of 1, from which the update gate is subtracted. -/
abbrev oneW : EReal := Ideal.ofBits .f32 0x3F800000#32

/-- An affine form of a row: the dot product with one weight row, plus that row's bias. -/
def affine {K : Nat} (row w : Fin K → EReal) (bias : EReal) : EReal := (∑ f : Fin K, row f * w f) + bias

/-- The pooled message at feature `g`: the maximum over the neighbours of the transformed neighbour feature times the
    edge weight, from −∞. -/
def pooled (nb : Fin 256 → Fin 128 → EReal) (e : Fin 256 → EReal) (M : Fin 128 → Fin 128 → EReal) (bM : Fin 128 → EReal)
    (g : Fin 128) : EReal :=
  (Finset.univ : Finset (Fin 256)).fold max negInf (fun j => affine (nb j) (M g) (bM g) * e j)

/-- The rectified sum of the node's own message and the pooled one: the cell's input row. -/
def act (h : Fin 128 → EReal) (nb : Fin 256 → Fin 128 → EReal) (e : Fin 256 → EReal)
    (W : Fin 128 → Fin 128 → EReal) (bW : Fin 128 → EReal) (M : Fin 128 → Fin 128 → EReal) (bM : Fin 128 → EReal)
    (g : Fin 128) : EReal :=
  max (affine h (W g) (bW g) + pooled nb e M bM g) zeroW

/-- Row `g` of the reset block, of the update block and of the candidate block among the 384 gate rows. -/
abbrev gateR (g : Fin 128) : Fin 384 := ⟨g.val, by have := g.isLt; omega⟩
abbrev gateZ (g : Fin 128) : Fin 384 := ⟨128 + g.val, by have := g.isLt; omega⟩
abbrev gateN (g : Fin 128) : Fin 384 := ⟨256 + g.val, by have := g.isLt; omega⟩

/-- The gated recurrent cell on an input row `x` and a hidden row `h`, at feature `g`. -/
def gru (x h : Fin 128 → EReal) (Wi : Fin 384 → Fin 128 → EReal) (bi : Fin 384 → EReal)
    (Wh : Fin 384 → Fin 128 → EReal) (bh : Fin 384 → EReal) (g : Fin 128) : EReal :=
  (oneW - Ideal.logistic (affine x (Wi (gateZ g)) (bi (gateZ g)) + affine h (Wh (gateZ g)) (bh (gateZ g))))
      * Ideal.tanh (affine x (Wi (gateN g)) (bi (gateN g))
          + Ideal.logistic (affine x (Wi (gateR g)) (bi (gateR g)) + affine h (Wh (gateR g)) (bh (gateR g)))
            * affine h (Wh (gateN g)) (bh (gateN g)))
    + Ideal.logistic (affine x (Wi (gateZ g)) (bi (gateZ g)) + affine h (Wh (gateZ g)) (bh (gateZ g))) * h g

/-- One node's new feature `g`: the cell applied to the rectified message row and the node's own row. -/
def nodeUpdate (h : Fin 128 → EReal) (nb : Fin 256 → Fin 128 → EReal) (e : Fin 256 → EReal)
    (W : Fin 128 → Fin 128 → EReal) (bW : Fin 128 → EReal) (M : Fin 128 → Fin 128 → EReal) (bM : Fin 128 → EReal)
    (Wi : Fin 384 → Fin 128 → EReal) (bi : Fin 384 → EReal) (Wh : Fin 384 → Fin 128 → EReal) (bh : Fin 384 → EReal)
    (g : Fin 128) : EReal :=
  gru (act h nb e W bW M bM) h Wi bi Wh bh g

/-- The whole layer on the argument arrays: node `n` of batch `b` sees its own row of `X1`, the rows of batch `b` of
    `X2` as neighbours and row (b, n) of the edge array. -/
def layer (X1 X2 : (⟨3, ![8, 256, 128]⟩ : Shape).Idx → EReal) (E : (⟨3, ![8, 256, 256]⟩ : Shape).Idx → EReal)
    (W : (⟨2, ![128, 128]⟩ : Shape).Idx → EReal) (bW : (⟨1, ![128]⟩ : Shape).Idx → EReal)
    (M : (⟨2, ![128, 128]⟩ : Shape).Idx → EReal) (bM : (⟨1, ![128]⟩ : Shape).Idx → EReal)
    (Wi Wh : (⟨2, ![384, 128]⟩ : Shape).Idx → EReal) (bi bh : (⟨1, ![384]⟩ : Shape).Idx → EReal) :
    (⟨3, ![8, 256, 128]⟩ : Shape).Idx → EReal := fun i =>
  nodeUpdate (fun f => X1 (ix3 (i 0) (i 1) f)) (fun j f => X2 (ix3 (i 0) j f)) (fun j => E (ix3 (i 0) (i 1) j))
    (fun g f => W (ix2 g f)) (fun g => bW (ix1 g)) (fun g f => M (ix2 g f)) (fun g => bM (ix1 g))
    (fun k f => Wi (ix2 k f)) (fun k => bi (ix1 k)) (fun k f => Wh (ix2 k f)) (fun k => bh (ix1 k)) (i 2)

/-- The layer at named coordinates. -/
theorem layer_ix3 (X1 X2 : (⟨3, ![8, 256, 128]⟩ : Shape).Idx → EReal) (E : (⟨3, ![8, 256, 256]⟩ : Shape).Idx → EReal)
    (W : (⟨2, ![128, 128]⟩ : Shape).Idx → EReal) (bW : (⟨1, ![128]⟩ : Shape).Idx → EReal)
    (M : (⟨2, ![128, 128]⟩ : Shape).Idx → EReal) (bM : (⟨1, ![128]⟩ : Shape).Idx → EReal)
    (Wi Wh : (⟨2, ![384, 128]⟩ : Shape).Idx → EReal) (bi bh : (⟨1, ![384]⟩ : Shape).Idx → EReal)
    (b : Fin 8) (n : Fin 256) (g : Fin 128) :
    layer X1 X2 E W bW M bM Wi Wh bi bh (ix3 b n g)
      = nodeUpdate (fun f => X1 (ix3 b n f)) (fun j f => X2 (ix3 b j f)) (fun j => E (ix3 b n j))
          (fun g f => W (ix2 g f)) (fun g => bW (ix1 g)) (fun g f => M (ix2 g f)) (fun g => bM (ix1 g))
          (fun k f => Wi (ix2 k f)) (fun k => bi (ix1 k)) (fun k f => Wh (ix2 k f)) (fun k => bh (ix1 k)) g := rfl

end GraphGru

end
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.KernelNode.lean ====
/-
  What one grid step stores, read at a point.

  A grid step holds a block of 64 nodes of one batch: the nodes' own feature rows (an array 1×64×128), the 256 neighbour
  rows of that batch (1×256×128) and the nodes' edge rows (1×64×256), with the weights of the two affine maps and of the
  gated recurrent cell.  The stored block is built by whole-array operations; here each of them is read at an index
  given by coordinates, bottom up, until the value at (0, p, g) is the function of rows `GraphGru.nodeUpdate`:

  • dropping a leading unit axis reads the same entry;
  • a block times the transpose of a weight, plus the bias row repeated over the block's rows, is at (p, g) the affine
    form  (∑ f, row p f · weight g f) + bias g  — the product's entry is the sum over the one contracted axis, and the
    transposed weight read at (f, g) is the weight at (g, f);
  • the transformed neighbour rows, transposed to feature-major 128×256, given a leading unit axis and repeated for all 64
    nodes, times the edge rows given a middle unit axis and repeated for all 128 features, is at (p, g, k) the product
    (neighbour k's transformed feature g) · (edge weight from node p to neighbour k); its maximum along the last axis
    from −∞ is the fold of max over the 256 neighbours;
  • the 384 gate columns cut at 0, 128 and 256 are the reset, update and candidate rows g, 128 + g and 256 + g;
  • the logistic function, the hyperbolic tangent, sums, differences and products act entry by entry.
-/
import proofs.«157754_j4861902979305_1_alg».proof.Proof.Gen.KernelIdeal.Skeleton
import proofs.«157754_j4861902979305_1_alg».proof.Proof.Spec
import proofs.«157754_j4861902979305_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

open scoped BigOperators

namespace Cert.KernelIdeal.NodeValue

open Cert.KernelIdeal Cert.KernelIdeal.Gen Idealize.ShloMosaic Idealize.ShloMosaic.ValueIdx

/-- The node's own block with its unit batch axis dropped. -/
theorem pay2_apply (b0 : Vec Ideal S1x64x128 .f32) (p : Fin 64) (f : Fin 128) :
    k0_pay2 (F := Ideal) b0 (ix2 p f) = b0 (ix3 0 p f) :=
  shapeCast_1ab_ab_apply b0 _ p f

/-- An M×K block times the transpose of an N×K weight, plus the bias row broadcast over the M rows: at (p, g) the affine
    form of row p of the block against row g of the weight. -/
theorem linear_apply {M K N : Nat} {d : DotDims ⟨2, ![M, K]⟩ ⟨2, ![K, N]⟩ ⟨2, ![M, N]⟩} (hd : PlainDot.IsPlain d)
    (prec : Option ContractPrecision)
    (x : FVec Ideal ⟨2, ![M, K]⟩ .f32) (w : FVec Ideal ⟨2, ![N, K]⟩ .f32) (bias : FVec Ideal ⟨1, ![N]⟩ .f32)
    (ht : (⟨2, ![N, K]⟩ : Shape).Transposes [1, 0] ⟨2, ![K, N]⟩)
    (hc : (⟨1, ![N]⟩ : Shape).ShapeCasts ⟨2, ![1, N]⟩) (hb : (⟨2, ![1, N]⟩ : Shape).Broadcasts ⟨2, ![M, N]⟩)
    (p : Fin M) (g : Fin N) :
    addf (matmul d prec x (transpose ⟨2, ![K, N]⟩ [1, 0] w ht) (constant (F := Ideal) ⟨2, ![M, N]⟩ .f32 0x00000000#32))
        (broadcastTo ⟨2, ![M, N]⟩ (shapeCast ⟨2, ![1, N]⟩ bias hc) hb) (ix2 p g)
      = GraphGru.affine (fun f => x (ix2 p f)) (fun f => w (ix2 g f)) (bias (ix1 g)) := by
  rw [addf_apply, PlainDot.matmul_zero_apply hd, broadcastTo_1b_ab_apply, shapeCast_a_1a_apply]
  unfold GraphGru.affine
  congr 1
  refine Finset.sum_congr rfl fun i _ => ?_
  rw [transpose_ix2_apply]

/-- The transformed neighbour rows laid out feature-major and repeated for every node, times the node's edge row repeated
    for every feature: at (p, g, k) neighbour k's feature g times the edge weight from node p to neighbour k. -/
theorem masked_apply (v : FVec Ideal S256x128 .f32) (e : FVec Ideal S64x256 .f32) (p : Fin 64) (g : Fin 128) (k : Fin 256) :
    mulf (broadcastTo S64x128x256 (shapeCast S1x128x256 (transpose S128x256 [1, 0] v Facts₀.transposes_S256x128_p1_0_S128x256)
              Facts₀.shapeCasts_S128x256_S1x128x256) Facts₀.broadcasts_S1x128x256_S64x128x256)
         (broadcastTo S64x128x256 (shapeCast S64x1x256 e Facts₀.shapeCasts_S64x256_S64x1x256)
              Facts₀.broadcasts_S64x1x256_S64x128x256) (ix3 p g k)
      = v (ix2 k g) * e (ix2 p k) := by
  rw [mulf_apply]
  congr 1
  · refine (broadcastTo_apply _ _ (ix3 p g k) (ix3 (0 : Fin 1) g k) fun a => ?_).trans ?_
    · match a with
      | ⟨0, _⟩ => rfl
      | ⟨1, _⟩ => rfl
      | ⟨2, _⟩ => rfl
    · exact (shapeCast_ab_1ab_apply _ _ 0 g k).trans (transpose_ix2_apply v _ g k)
  · refine (broadcastTo_apply _ _ (ix3 p g k) (ix3 p (0 : Fin 1) k) fun a => ?_).trans ?_
    · match a with
      | ⟨0, _⟩ => rfl
      | ⟨1, _⟩ => rfl
      | ⟨2, _⟩ => rfl
    · refine shapeCast_apply e _ (ix3 p (0 : Fin 1) k) (ix2 p k) ?_
      rw [Shape.rowMajor_val_two, Shape.rowMajor_val_three]
      show p.val * 256 + k.val = (p.val * 1 + 0) * 256 + k.val
      omega

/-- The maximum along the last axis of a 64×128×256 array, from the word of −∞: at (p, g) the fold of max over the 256
    entries (p, g, ·). -/
theorem max_last_apply (src : FVec Ideal S64x128x256 .f32) (p : Fin 64) (g : Fin 128) :
    multiReduction (F := Ideal) .maximumf [2] S64x128 src 0xFF800000#32 Facts₀.reduces_S64x128x256_S64x128 (.inl rfl) rfl (ix2 p g)
      = (Finset.univ : Finset (Fin 256)).fold max GraphGru.negInf (fun k => src (ix3 p g k)) := by
  refine (Ideal.multiReduction_maximumf_single (s := S64x128x256) (t := S64x128) (a := (2 : Fin 3)) src 0xFF800000#32
    Facts₀.reduces_S64x128x256_S64x128 (.inl rfl) rfl (ix2 p g)).trans ?_
  have hl : ∀ k : Fin 256, Facts₀.reduces_S64x128x256_S64x128.lift (ix2 p g) k = ix3 p g k := fun k => by
    funext a
    refine Fin.ext ?_
    match a with
    | ⟨0, _⟩ => rfl
    | ⟨1, _⟩ => rfl
    | ⟨2, _⟩ => rfl
  show (Finset.univ : Finset (Fin 256)).fold max GraphGru.negInf _ = _
  congr 1
  funext k
  show src (Facts₀.reduces_S64x128x256_S64x128.lift (ix2 p g) k) = _
  rw [hl k]

/-- The maximum over the 256 neighbours, from the word of −∞, of the masked products. -/
theorem pooled_apply (v : FVec Ideal S256x128 .f32) (e : FVec Ideal S64x256 .f32) (p : Fin 64) (g : Fin 128) :
    multiReduction (F := Ideal) .maximumf [2] S64x128
        (mulf (broadcastTo S64x128x256 (shapeCast S1x128x256 (transpose S128x256 [1, 0] v Facts₀.transposes_S256x128_p1_0_S128x256)
                  Facts₀.shapeCasts_S128x256_S1x128x256) Facts₀.broadcasts_S1x128x256_S64x128x256)
              (broadcastTo S64x128x256 (shapeCast S64x1x256 e Facts₀.shapeCasts_S64x256_S64x1x256)
                  Facts₀.broadcasts_S64x1x256_S64x128x256))
        0xFF800000#32 Facts₀.reduces_S64x128x256_S64x128 (.inl rfl) rfl (ix2 p g)
      = (Finset.univ : Finset (Fin 256)).fold max GraphGru.negInf (fun j => v (ix2 j g) * e (ix2 p j)) :=
  (max_last_apply _ p g).trans (congrArg (fun f => (Finset.univ : Finset (Fin 256)).fold max GraphGru.negInf f)
    (funext fun k => masked_apply v e p g k))

theorem plain64 : PlainDot.IsPlain dot_S64x128_S128x128_S64x128_1_0_0_1_n_n := ⟨rfl, rfl, rfl, rfl, rfl, rfl⟩
theorem plain256 : PlainDot.IsPlain dot_S256x128_S128x128_S256x128_1_0_0_1_n_n := ⟨rfl, rfl, rfl, rfl, rfl, rfl⟩
theorem plain384 : PlainDot.IsPlain dot_S64x128_S128x384_S64x384_1_0_0_1_n_n := ⟨rfl, rfl, rfl, rfl, rfl, rfl⟩

/-- The message row before the rectifier: the node's own affine message plus the pooled neighbour message. -/
theorem pay3_apply (b0 : Vec Ideal S1x64x128 .f32) (b1 : Vec Ideal S1x256x128 .f32) (b2 : Vec Ideal S1x64x256 .f32)
    (w3 : Vec Ideal S128x128 .f32) (w4 : Vec Ideal S128 .f32) (w5 : Vec Ideal S128x128 .f32) (w6 : Vec Ideal S128 .f32)
    (p : Fin 64) (g : Fin 128) :
    k0_pay3 (F := Ideal) b0 b1 b2 w3 w4 w5 w6 (ix2 p g)
      = GraphGru.affine (fun f => b0 (ix3 0 p f)) (fun f => w3 (ix2 g f)) (w4 (ix1 g))
        + GraphGru.pooled (fun j f => b1 (ix3 0 j f)) (fun j => b2 (ix3 0 p j)) (fun g f => w5 (ix2 g f)) (fun g => w6 (ix1 g)) g := by
  unfold k0_pay3
  dsimp only
  rw [addf_apply]
  refine congrArg₂ (· + ·) ?_ ?_
  · refine (linear_apply plain64 _ (k0_pay2 b0) w3 w4 _ _ _ p g).trans ?_
    simp only [pay2_apply]
  · refine (pooled_apply _ _ p g).trans ?_
    unfold GraphGru.pooled
    refine congrArg (fun f => (Finset.univ : Finset (Fin 256)).fold max GraphGru.negInf f) (funext fun j => ?_)
    refine congrArg₂ (· * ·) ?_ ?_
    · refine (linear_apply plain256 _ _ w5 w6 _ _ _ j g).trans ?_
      simp only [shapeCast_1ab_ab_apply]
    · exact shapeCast_1ab_ab_apply b2 _ p j

/-- The logistic function and the hyperbolic tangent of an array, read at an index. -/
theorem logistic_apply {s : Shape} (a : FVec Ideal s .f32) (i : s.Idx) : logistic a i = Ideal.logistic (a i) := rfl
theorem tanh_apply {s : Shape} (a : FVec Ideal s .f32) (i : s.Idx) : tanh a i = Ideal.tanh (a i) := rfl

/-- A 64-row block against the 384 gate rows: at (p, k) the affine form of row p against gate row k. -/
theorem gates_apply (x : FVec Ideal S64x128 .f32) (w : Vec Ideal S384x128 .f32) (bias : Vec Ideal S384 .f32)
    (p : Fin 64) (k : Fin 384) :
    matmul dot_S64x128_S128x384_S64x384_1_0_0_1_n_n (some .fp32) x
            (transpose (α := Ideal .f32) S128x384 [1, 0] w Facts₀.transposes_S384x128_p1_0_S128x384)
            (constant (F := Ideal) S64x384 .f32 0x00000000#32) (ix2 p k)
        + broadcastTo S64x384 (shapeCast (α := Ideal .f32) S1x384 bias Facts₀.shapeCasts_S384_S1x384)
            Facts₀.broadcasts_S1x384_S64x384 (ix2 p k)
      = GraphGru.affine (fun f => x (ix2 p f)) (fun f => w (ix2 k f)) (bias (ix1 k)) :=
  linear_apply plain384 _ x w bias _ _ _ p k

/-- The three column blocks of the gate array: reset, update and candidate rows of feature g. -/
theorem sliceR_apply (X : FVec Ideal S64x384 .f32) (p : Fin 64) (g : Fin 128) :
    extractStridedSlice S64x128 ![0, 0] X Facts₀.slices_S64x384_o0_0_S64x128 (ix2 p g) = X (ix2 p (GraphGru.gateR g)) :=
  slice2_axis1_apply 0 X _ p g _ (Nat.zero_add _).symm
theorem sliceZ_apply (X : FVec Ideal S64x384 .f32) (p : Fin 64) (g : Fin 128) :
    extractStridedSlice S64x128 ![0, 128] X Facts₀.slices_S64x384_o0_128_S64x128 (ix2 p g) = X (ix2 p (GraphGru.gateZ g)) :=
  slice2_axis1_apply 128 X _ p g _ rfl
theorem sliceN_apply (X : FVec Ideal S64x384 .f32) (p : Fin 64) (g : Fin 128) :
    extractStridedSlice S64x128 ![0, 256] X Facts₀.slices_S64x384_o0_256_S64x128 (ix2 p g) = X (ix2 p (GraphGru.gateN g)) :=
  slice2_axis1_apply 256 X _ p g _ rfl

/-- The rectified message row: the cell's input. -/
theorem act_apply (b0 : Vec Ideal S1x64x128 .f32) (b1 : Vec Ideal S1x256x128 .f32) (b2 : Vec Ideal S1x64x256 .f32)
    (w3 : Vec Ideal S128x128 .f32) (w4 : Vec Ideal S128 .f32) (w5 : Vec Ideal S128x128 .f32) (w6 : Vec Ideal S128 .f32)
    (p : Fin 64) (f : Fin 128) :
    maximumf (k0_pay3 (F := Ideal) b0 b1 b2 w3 w4 w5 w6) (k0_pay4 (F := Ideal)) (ix2 p f)
      = GraphGru.act (fun f => b0 (ix3 0 p f)) (fun j f => b1 (ix3 0 j f)) (fun j => b2 (ix3 0 p j))
          (fun g f => w3 (ix2 g f)) (fun g => w4 (ix1 g)) (fun g f => w5 (ix2 g f)) (fun g => w6 (ix1 g)) f := by
  rw [maximumf_apply, pay3_apply]
  rfl

/-- The gated cell as the kernel writes it, over any input block v31 rectified against v32 and any hidden block x1: at
    (0, p, g) the cell `GraphGru.gru` applied to row p of the rectified block and row p of the hidden block. -/
theorem pay1_apply (x1 : FVec Ideal S64x128 .f32) (w7 w8 : Vec Ideal S384x128 .f32) (w9 w10 : Vec Ideal S384 .f32)
    (v31 v32 : FVec Ideal S64x128 .f32) (p : Fin 64) (g : Fin 128) :
    k0_pay1 (F := Ideal) x1 w7 w8 w9 w10 v31 v32 (ix3 (0 : Fin 1) p g)
      = GraphGru.gru (fun f => maximumf v31 v32 (ix2 p f)) (fun f => x1 (ix2 p f))
          (fun k f => w7 (ix2 k f)) (fun k => w9 (ix1 k)) (fun k f => w8 (ix2 k f)) (fun k => w10 (ix1 k)) g := by
  unfold k0_pay1
  dsimp only
  refine (shapeCast_ab_1ab_apply _ _ 0 p g).trans ?_
  simp only [addf_apply, mulf_apply, subf_apply, logistic_apply, tanh_apply, broadcast_apply,
    sliceR_apply, sliceZ_apply, sliceN_apply]
  rw [gates_apply (maximumf v31 v32) w7 w9 p (GraphGru.gateR g), gates_apply (maximumf v31 v32) w7 w9 p (GraphGru.gateZ g),
    gates_apply (maximumf v31 v32) w7 w9 p (GraphGru.gateN g), gates_apply x1 w8 w10 p (GraphGru.gateR g),
    gates_apply x1 w8 w10 p (GraphGru.gateZ g), gates_apply x1 w8 w10 p (GraphGru.gateN g)]
  rfl

/-- THE PAYLOAD AT A POINT: what one grid step stores at (0, p, g) of its output block is the node update of the block's
    rows — the gated cell applied to the rectified message row and the node's own row. -/
theorem payload_is_nodeUpdate (b0 : Vec Ideal S1x64x128 .f32) (b1 : Vec Ideal S1x256x128 .f32) (b2 : Vec Ideal S1x64x256 .f32) (w3 : Vec Ideal S128x128 .f32) (w4 : Vec Ideal S128 .f32) (w5 : Vec Ideal S128x128 .f32) (w6 : Vec Ideal S128 .f32) (w7 w8 : Vec Ideal S384x128 .f32) (w9 w10 : Vec Ideal S384 .f32) (p : Fin 64) (g : Fin 128) :
      k0_pay1 (F := Ideal) (k0_pay2 b0) w7 w8 w9 w10 (k0_pay3 b0 b1 b2 w3 w4 w5 w6) (k0_pay4 (F := Ideal)) (ix3 (0 : Fin 1) p g)
        = GraphGru.nodeUpdate (fun f => b0 (ix3 0 p f)) (fun j f => b1 (ix3 0 j f)) (fun j => b2 (ix3 0 p j)) (fun g f => w3 (ix2 g f)) (fun g => w4 (ix1 g)) (fun g f => w5 (ix2 g f)) (fun g => w6 (ix1 g)) (fun k f => w7 (ix2 k f)) (fun k => w9 (ix1 k)) (fun k f => w8 (ix2 k f)) (fun k => w10 (ix1 k)) g := by
  refine (pay1_apply (k0_pay2 b0) w7 w8 w9 w10 (k0_pay3 b0 b1 b2 w3 w4 w5 w6) (k0_pay4 (F := Ideal)) p g).trans ?_
  have hx : (fun f => maximumf (k0_pay3 (F := Ideal) b0 b1 b2 w3 w4 w5 w6) (k0_pay4 (F := Ideal)) (ix2 p f))
      = GraphGru.act (fun f => b0 (ix3 0 p f)) (fun j f => b1 (ix3 0 j f)) (fun j => b2 (ix3 0 p j))
          (fun g f => w3 (ix2 g f)) (fun g => w4 (ix1 g)) (fun g f => w5 (ix2 g f)) (fun g => w6 (ix1 g)) :=
    funext fun f => act_apply b0 b1 b2 w3 w4 w5 w6 p f
  have hh : (fun f => k0_pay2 (F := Ideal) b0 (ix2 p f)) = fun f => b0 (ix3 0 p f) := funext fun f => pay2_apply b0 p f
  rw [hx, hh]
  rfl

end Cert.KernelIdeal.NodeValue

end
-- ==== Proof.KernelLayer.lean ====
/-
  The kernel's result array as one function of the argument arrays.

  The grid has 8 batches times 4 tiles of 64 nodes.  At grid point (B, I) the body is handed rows 64 I … 64 I + 63 of
  batch B of the node array and of the edge array, the whole of batch B of the neighbour array, and every weight array
  whole; what it stores at row p, feature g of its output block is the update of node (B, 64 I + p): that node's own
  row, the batch's 256 neighbour rows and the node's edge row are exactly what the block entries hold
  (`nodeBlk`, `nbrBlk`, `edgeBlk`, `wblk3` … `wblk10`; `block_is_layer`).  So what point (B, I) writes back is block
  (B, I) of the layer of the argument arrays (`flushed_eq`), the 32 blocks tile the [8, 256, 128] result (`cover`),
  and after the run the result holds the layer at every index (`final`, `run`).
-/
import proofs.«157754_j4861902979305_1_alg».proof.Proof.Gen.KernelIdeal.Value
import proofs.«157754_j4861902979305_1_alg».proof.Proof.Spec
import proofs.«157754_j4861902979305_1_alg».proof.Proof.KernelNode
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.LayerValue

open Cert.KernelIdeal Cert.KernelIdeal.Gen Cert.KernelIdeal.Value

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The layer of the argument arrays as launched, on core `c`. -/
abbrev L (c : Dev nD) : S8x256x128.Idx → EReal :=
  GraphGru.layer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The block indices at grid point `t` = (batch, tile): the node and edge windows and the output move together over
    (batch, tile, 0), the neighbour window over (batch, 0, 0), every weight window stays at its one block. -/
theorem idx_facts : ∀ t : Fin cfg0.N,
    win0_0.index t (0 : Fin 3) = win0_11.index t (0 : Fin 3) ∧ win0_0.index t (1 : Fin 3) = win0_11.index t (1 : Fin 3) ∧ win0_0.index t (2 : Fin 3) = 0
    ∧ win0_1.index t (0 : Fin 3) = win0_11.index t (0 : Fin 3) ∧ win0_1.index t (1 : Fin 3) = 0 ∧ win0_1.index t (2 : Fin 3) = 0
    ∧ win0_2.index t (0 : Fin 3) = win0_11.index t (0 : Fin 3) ∧ win0_2.index t (1 : Fin 3) = win0_11.index t (1 : Fin 3) ∧ win0_2.index t (2 : Fin 3) = 0
    ∧ win0_11.index t (0 : Fin 3) < 8 ∧ win0_11.index t (1 : Fin 3) < 4 ∧ win0_11.index t (2 : Fin 3) = 0 :=
  (by decide +kernel : ∀ t : Fin grid0.N, _)

theorem idx_weights : ∀ t : Fin cfg0.N,
    win0_3.index t (0 : Fin 2) = 0 ∧ win0_3.index t (1 : Fin 2) = 0 ∧ win0_4.index t (0 : Fin 1) = 0
    ∧ win0_5.index t (0 : Fin 2) = 0 ∧ win0_5.index t (1 : Fin 2) = 0 ∧ win0_6.index t (0 : Fin 1) = 0
    ∧ win0_7.index t (0 : Fin 2) = 0 ∧ win0_7.index t (1 : Fin 2) = 0 ∧ win0_8.index t (0 : Fin 2) = 0 ∧ win0_8.index t (1 : Fin 2) = 0
    ∧ win0_9.index t (0 : Fin 1) = 0 ∧ win0_10.index t (0 : Fin 1) = 0 :=
  (by decide +kernel : ∀ t : Fin grid0.N, _)

/-- Every (batch, tile) pair is some grid point's output block. -/
theorem idx_onto : ∀ (q0 : Fin 8) (q1 : Fin 4), ∃ t : Fin cfg0.N, win0_11.index t = ![q0.val, q1.val, 0] :=
  (by decide +kernel : ∀ (q0 : Fin 8) (q1 : Fin 4), ∃ t : Fin grid0.N, win0_11.index t = ![q0.val, q1.val, 0])

/-- Row `p` of tile `I` among a batch's 256 nodes. -/
abbrev tileRow (I : Fin 4) (p : Fin 64) : Fin 256 := ⟨I.val * 64 + p.val, by have := I.isLt; have := p.isLt; omega⟩

/-- A weight window's one block is the whole weight array, at every point. -/
theorem wblk3 (c : Dev nD) (t : Fin cfg0.N) : (iblk m c 3 t : Vec Ideal S128x128 .f32) = m ((c : Thread nD τ).loc main_arg3) := by
  obtain ⟨e30, e31, e4, e50, e51, e6, e70, e71, e80, e81, e9, e10⟩ := idx_weights t
  funext y
  unfold iblk
  rw [View.read_apply]
  show V m c main_arg3 _ = m (c.tc.loc main_arg3) _
  unfold V
  congr 1
  funext a
  apply Fin.ext
  match a with
  | ⟨0, _⟩ => show win0_3.index t 0 * 128 + 1 * (y 0).val = (y 0).val; rw [e30]; omega
  | ⟨1, _⟩ => show win0_3.index t 1 * 128 + 1 * (y 1).val = (y 1).val; rw [e31]; omega

theorem wblk4 (c : Dev nD) (t : Fin cfg0.N) : (iblk m c 4 t : Vec Ideal S128 .f32) = m ((c : Thread nD τ).loc main_arg4) := by
  obtain ⟨e30, e31, e4, e50, e51, e6, e70, e71, e80, e81, e9, e10⟩ := idx_weights t
  funext y
  unfold iblk
  rw [View.read_apply]
  show V m c main_arg4 _ = m (c.tc.loc main_arg4) _
  unfold V
  congr 1
  funext a
  apply Fin.ext
  match a with
  | ⟨0, _⟩ => show win0_4.index t 0 * 128 + 1 * (y 0).val = (y 0).val; rw [e4]; omega

theorem wblk5 (c : Dev nD) (t : Fin cfg0.N) : (iblk m c 5 t : Vec Ideal S128x128 .f32) = m ((c : Thread nD τ).loc main_arg5) := by
  obtain ⟨e30, e31, e4, e50, e51, e6, e70, e71, e80, e81, e9, e10⟩ := idx_weights t
  funext y
  unfold iblk
  rw [View.read_apply]
  show V m c main_arg5 _ = m (c.tc.loc main_arg5) _
  unfold V
  congr 1
  funext a
  apply Fin.ext
  match a with
  | ⟨0, _⟩ => show win0_5.index t 0 * 128 + 1 * (y 0).val = (y 0).val; rw [e50]; omega
  | ⟨1, _⟩ => show win0_5.index t 1 * 128 + 1 * (y 1).val = (y 1).val; rw [e51]; omega

theorem wblk6 (c : Dev nD) (t : Fin cfg0.N) : (iblk m c 6 t : Vec Ideal S128 .f32) = m ((c : Thread nD τ).loc main_arg6) := by
  obtain ⟨e30, e31, e4, e50, e51, e6, e70, e71, e80, e81, e9, e10⟩ := idx_weights t
  funext y
  unfold iblk
  rw [View.read_apply]
  show V m c main_arg6 _ = m (c.tc.loc main_arg6) _
  unfold V
  congr 1
  funext a
  apply Fin.ext
  match a with
  | ⟨0, _⟩ => show win0_6.index t 0 * 128 + 1 * (y 0).val = (y 0).val; rw [e6]; omega

theorem wblk7 (c : Dev nD) (t : Fin cfg0.N) : (iblk m c 7 t : Vec Ideal S384x128 .f32) = m ((c : Thread nD τ).loc main_arg7) := by
  obtain ⟨e30, e31, e4, e50, e51, e6, e70, e71, e80, e81, e9, e10⟩ := idx_weights t
  funext y
  unfold iblk
  rw [View.read_apply]
  show V m c main_arg7 _ = m (c.tc.loc main_arg7) _
  unfold V
  congr 1
  funext a
  apply Fin.ext
  match a with
  | ⟨0, _⟩ => show win0_7.index t 0 * 384 + 1 * (y 0).val = (y 0).val; rw [e70]; omega
  | ⟨1, _⟩ => show win0_7.index t 1 * 128 + 1 * (y 1).val = (y 1).val; rw [e71]; omega

theorem wblk8 (c : Dev nD) (t : Fin cfg0.N) : (iblk m c 8 t : Vec Ideal S384x128 .f32) = m ((c : Thread nD τ).loc main_arg8) := by
  obtain ⟨e30, e31, e4, e50, e51, e6, e70, e71, e80, e81, e9, e10⟩ := idx_weights t
  funext y
  unfold iblk
  rw [View.read_apply]
  show V m c main_arg8 _ = m (c.tc.loc main_arg8) _
  unfold V
  congr 1
  funext a
  apply Fin.ext
  match a with
  | ⟨0, _⟩ => show win0_8.index t 0 * 384 + 1 * (y 0).val = (y 0).val; rw [e80]; omega
  | ⟨1, _⟩ => show win0_8.index t 1 * 128 + 1 * (y 1).val = (y 1).val; rw [e81]; omega

theorem wblk9 (c : Dev nD) (t : Fin cfg0.N) : (iblk m c 9 t : Vec Ideal S384 .f32) = m ((c : Thread nD τ).loc main_arg9) := by
  obtain ⟨e30, e31, e4, e50, e51, e6, e70, e71, e80, e81, e9, e10⟩ := idx_weights t
  funext y
  unfold iblk
  rw [View.read_apply]
  show V m c main_arg9 _ = m (c.tc.loc main_arg9) _
  unfold V
  congr 1
  funext a
  apply Fin.ext
  match a with
  | ⟨0, _⟩ => show win0_9.index t 0 * 384 + 1 * (y 0).val = (y 0).val; rw [e9]; omega

theorem wblk10 (c : Dev nD) (t : Fin cfg0.N) : (iblk m c 10 t : Vec Ideal S384 .f32) = m ((c : Thread nD τ).loc main_arg10) := by
  obtain ⟨e30, e31, e4, e50, e51, e6, e70, e71, e80, e81, e9, e10⟩ := idx_weights t
  funext y
  unfold iblk
  rw [View.read_apply]
  show V m c main_arg10 _ = m (c.tc.loc main_arg10) _
  unfold V
  congr 1
  funext a
  apply Fin.ext
  match a with
  | ⟨0, _⟩ => show win0_10.index t 0 * 384 + 1 * (y 0).val = (y 0).val; rw [e10]; omega

/-- The node window's block at point (batch `B`, tile `I`) holds rows `64 I … 64 I + 63` of batch `B` of the node array. -/
theorem nodeBlk (c : Dev nD) (t : Fin cfg0.N) (B : Fin 8) (I : Fin 4) (hB : win0_11.index t (0 : Fin 3) = B.val)
    (hI : win0_11.index t (1 : Fin 3) = I.val) (p : Fin 64) (f : Fin 128) :
    (iblk m c 0 t : Vec Ideal S1x64x128 .f32) (ix3 0 p f)
      = (m ((c : Thread nD τ).loc main_arg0) : S8x256x128.Idx → EReal) (ix3 B (tileRow I p) f) := by
  obtain ⟨a0, a1, a2, b0, b1, b2, c0, c1, c2, d0, d1, d2⟩ := idx_facts t
  unfold iblk
  rw [View.read_apply]
  show V m c main_arg0 _ = m (c.tc.loc main_arg0) _
  unfold V
  congr 1
  funext a
  apply Fin.ext
  match a with
  | ⟨0, _⟩ => show win0_0.index t 0 * 1 + 1 * 0 = B.val; rw [a0, hB]; omega
  | ⟨1, _⟩ => show win0_0.index t 1 * 64 + 1 * p.val = I.val * 64 + p.val; rw [a1, hI]; omega
  | ⟨2, _⟩ => show win0_0.index t 2 * 128 + 1 * f.val = f.val; rw [a2]; omega

/-- The neighbour window's block at a point of batch `B` is the whole batch `B` of the neighbour array. -/
theorem nbrBlk (c : Dev nD) (t : Fin cfg0.N) (B : Fin 8) (hB : win0_11.index t (0 : Fin 3) = B.val) (j : Fin 256) (f : Fin 128) :
    (iblk m c 1 t : Vec Ideal S1x256x128 .f32) (ix3 0 j f)
      = (m ((c : Thread nD τ).loc main_arg1) : S8x256x128.Idx → EReal) (ix3 B j f) := by
  obtain ⟨a0, a1, a2, b0, b1, b2, c0, c1, c2, d0, d1, d2⟩ := idx_facts t
  unfold iblk
  rw [View.read_apply]
  show V m c main_arg1 _ = m (c.tc.loc main_arg1) _
  unfold V
  congr 1
  funext a
  apply Fin.ext
  match a with
  | ⟨0, _⟩ => show win0_1.index t 0 * 1 + 1 * 0 = B.val; rw [b0, hB]; omega
  | ⟨1, _⟩ => show win0_1.index t 1 * 256 + 1 * j.val = j.val; rw [b1]; omega
  | ⟨2, _⟩ => show win0_1.index t 2 * 128 + 1 * f.val = f.val; rw [b2]; omega

/-- The edge window's block at point (batch `B`, tile `I`) holds rows `64 I … 64 I + 63` of batch `B` of the edge array. -/
theorem edgeBlk (c : Dev nD) (t : Fin cfg0.N) (B : Fin 8) (I : Fin 4) (hB : win0_11.index t (0 : Fin 3) = B.val)
    (hI : win0_11.index t (1 : Fin 3) = I.val) (p : Fin 64) (j : Fin 256) :
    (iblk m c 2 t : Vec Ideal S1x64x256 .f32) (ix3 0 p j)
      = (m ((c : Thread nD τ).loc main_arg2) : S8x256x256.Idx → EReal) (ix3 B (tileRow I p) j) := by
  obtain ⟨a0, a1, a2, b0, b1, b2, c0, c1, c2, d0, d1, d2⟩ := idx_facts t
  unfold iblk
  rw [View.read_apply]
  show V m c main_arg2 _ = m (c.tc.loc main_arg2) _
  unfold V
  congr 1
  funext a
  apply Fin.ext
  match a with
  | ⟨0, _⟩ => show win0_2.index t 0 * 1 + 1 * 0 = B.val; rw [c0, hB]; omega
  | ⟨1, _⟩ => show win0_2.index t 1 * 64 + 1 * p.val = I.val * 64 + p.val; rw [c1, hI]; omega
  | ⟨2, _⟩ => show win0_2.index t 2 * 256 + 1 * j.val = j.val; rw [c2]; omega

/-- What the body computes on blocks that hold tile `I` of batch `B` is the layer at the node the block entry stands
    for: the body's value at row `p` is one node's update from that node's row, the batch's neighbour rows and the node's
    edge row, which is what the layer is at (B, 64 I + p). -/
theorem block_is_layer (X1 X2 : S8x256x128.Idx → EReal) (E : S8x256x256.Idx → EReal) (W : S128x128.Idx → EReal)
    (bW : S128.Idx → EReal) (M : S128x128.Idx → EReal) (bM : S128.Idx → EReal) (Wi Wh : S384x128.Idx → EReal)
    (bi bh : S384.Idx → EReal) (b0 : Vec Ideal S1x64x128 .f32) (b1 : Vec Ideal S1x256x128 .f32)
    (b2 : Vec Ideal S1x64x256 .f32) (B : Fin 8) (I : Fin 4)
    (h0 : ∀ (p : Fin 64) (f : Fin 128), b0 (ix3 0 p f) = X1 (ix3 B (tileRow I p) f))
    (h1 : ∀ (j : Fin 256) (f : Fin 128), b1 (ix3 0 j f) = X2 (ix3 B j f))
    (h2 : ∀ (p : Fin 64) (j : Fin 256), b2 (ix3 0 p j) = E (ix3 B (tileRow I p) j))
    (y : S1x64x128.Idx) (i : S8x256x128.Idx) (hi0 : (i 0).val = B.val) (hi1 : (i 1).val = I.val * 64 + (y 1).val)
    (hi2 : (i 2).val = (y 2).val) :
    k0_pay1 (F := Ideal) (k0_pay2 b0) Wi Wh bi bh (k0_pay3 b0 b1 b2 W bW M bM) (k0_pay4 (F := Ideal)) y
      = GraphGru.layer X1 X2 E W bW M bM Wi Wh bi bh i := by
  obtain ⟨p, g, rfl⟩ : ∃ (p : Fin 64) (g : Fin 128), y = ix3 (0 : Fin 1) p g :=
    ⟨y 1, y 2, by rw [eq_ix3 y]; congr 1; exact Fin.ext (by have h : (y 0).val < 1 := (y 0).isLt; show (y 0).val = 0; omega)⟩
  obtain rfl : i = ix3 B (tileRow I p) g := by
    funext a; apply Fin.ext
    match a with
    | ⟨0, _⟩ => exact hi0
    | ⟨1, _⟩ => exact hi1
    | ⟨2, _⟩ => exact hi2
  rw [Cert.KernelIdeal.NodeValue.payload_is_nodeUpdate, GraphGru.layer_ix3]
  simp only [h0, h1, h2]

/-- WHAT POINT `t` WRITES BACK is block `t` of the layer of the argument arrays. -/
theorem flushed_eq (c : Dev nD) (t : Fin cfg0.N) :
    (dats m 0 c).flushed 11 t = ((cfg0.win 11).blk t).view.read (Elt Ideal) (L m c) := by
  rw [flushed11]
  unfold out0_11
  rw [View.canon_unit_zero hz3]
  simp only [View.ld_unit_zero (S := S1x64x128) hz3, View.ld_unit_zero (S := S1x256x128) hz3, View.ld_unit_zero (S := S1x64x256) hz3,
    View.ld_unit_zero (S := S128x128) hz2, View.ld_unit_zero (S := S128) hz1, View.ld_unit_zero (S := S384x128) hz2,
    View.ld_unit_zero (S := S384) hz1]
  rw [wblk3 m c t, wblk4 m c t, wblk5 m c t, wblk6 m c t, wblk7 m c t, wblk8 m c t, wblk9 m c t, wblk10 m c t]
  obtain ⟨a0, a1, a2, b0, b1, b2, c0, c1, c2, d0, d1, d2⟩ := idx_facts t
  refine funext fun (j : S1x64x128.Idx) => ?_
  show k0_pay1 (F := Ideal) (k0_pay2 (iblk m c 0 t)) _ _ _ _ (k0_pay3 (iblk m c 0 t) (iblk m c 1 t) (iblk m c 2 t) _ _ _ _) (k0_pay4 (F := Ideal)) j
    = L m c (((cfg0.win 11).blk t).view.emb j)
  refine block_is_layer _ _ _ _ _ _ _ _ _ _ _ (iblk m c 0 t) (iblk m c 1 t) (iblk m c 2 t) ⟨win0_11.index t 0, d0⟩ ⟨win0_11.index t 1, d1⟩
    (fun p f => nodeBlk m c t _ _ rfl rfl p f) (fun j f => nbrBlk m c t _ rfl j f) (fun p j => edgeBlk m c t _ _ rfl rfl p j) j _ ?_ ?_ ?_
  · show win0_11.index t 0 * 1 + 1 * (j 0).val = win0_11.index t 0
    have : (j 0).val < 1 := (j 0).isLt
    omega
  · show win0_11.index t 1 * 64 + 1 * (j 1).val = win0_11.index t 1 * 64 + (j 1).val
    omega
  · show win0_11.index t 2 * 128 + 1 * (j 2).val = (j 2).val
    rw [d2]; omega

/-- An index of the result array lies in point `t`'s block iff each coordinate lies in the block's range on its axis. -/
theorem mem_blk (t : Fin cfg0.N) (i : S8x256x128.Idx) :
    i ∈ ((cfg0.win 11).blk t).view.set ↔ ∀ a : Fin 3, win0_11.index t a * S1x64x128.size a ≤ (i a).val ∧ (i a).val < win0_11.index t a * S1x64x128.size a + S1x64x128.size a := by
  show i ∈ ((View.whole main_v0).slice (win0_11.rect t)).set ↔ _
  rw [View.set_slice_whole, Rect.mem_set_unit]
  exact Iff.rfl

/-- The 32 blocks tile the result array: node `n` of batch `b` is in the block of point (b, n / 64). -/
theorem cover (i : S8x256x128.Idx) : ∃ t : Fin cfg0.N, (cfg0.win 11).flush t = true ∧ i ∈ ((cfg0.win 11).blk t).view.set := by
  have hi0 : (i 0).val < 8 := (i 0).isLt
  have hi1 : (i 1).val < 256 := (i 1).isLt
  have hi2 : (i 2).val < 128 := (i 2).isLt
  obtain ⟨t, ht⟩ := idx_onto ⟨(i 0).val, hi0⟩ ⟨(i 1).val / 64, by omega⟩
  have q0 : win0_11.index t (0 : Fin 3) = (i 0).val := congrFun ht 0
  have q1 : win0_11.index t (1 : Fin 3) = (i 1).val / 64 := congrFun ht 1
  have q2 : win0_11.index t (2 : Fin 3) = 0 := congrFun ht 2
  refine ⟨t, flush0_11 t, ?_⟩
  rw [mem_blk]
  intro a
  match a with
  | ⟨0, _⟩ => show win0_11.index t 0 * 1 ≤ (i 0).val ∧ (i 0).val < win0_11.index t 0 * 1 + 1; omega
  | ⟨1, _⟩ => show win0_11.index t 1 * 64 ≤ (i 1).val ∧ (i 1).val < win0_11.index t 1 * 64 + 64; omega
  | ⟨2, _⟩ => show win0_11.index t 2 * 128 ≤ (i 2).val ∧ (i 2).val < win0_11.index t 2 * 128 + 128; omega

/-- THE RESULT ARRAY after the run is the layer of the argument arrays. -/
theorem final (c : Dev nD) : (dats m 0 c).arrAt 11 cfg0.N = L m c :=
  (dats m 0 c).arrAt_eq_of_cover 11 (L m c) (fun t _ => flushed_eq m c t) cover

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = L m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelIdeal.LayerValue

end
-- ==== Proof.RefLayer.lean ====
/-
  The whole-array program computes, at every (batch, node, feature) index, the node update of the message-passing
  layer followed by the gated recurrent cell.

  The program is read one stage at a time at named coordinates.  The two affine maps are dot products over the 128
  input features plus a bias.  The pooled message is a maximum over the 256 neighbour coordinates, which is the fold of
  `max` over that coordinate starting from the word of −∞.  The recurrent cell works on the arrays flattened to
  2048 rows; row `b * 256 + n` of a flattened array is row `(b, n)` of the original, and the three gate blocks are the
  column ranges starting at 0, 128 and 256 of the 384 gate columns.  The reference spells the logistic function as
  `1 / (1 + exp (−s))`, which on the extended reals is the logistic function by definition.
-/
import proofs.«157754_j4861902979305_1_alg».proof.Proof.Gen.ReferenceIdeal.Read
import proofs.«157754_j4861902979305_1_alg».proof.Proof.Spec
import Idealize.ShloMosaic.Lib.IdealHost
import Idealize.ShloMosaic.PureOps.Reduce
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The two affine maps -/

/-- The left operand's index of the first dot product, at named coordinates. -/
theorem lidx_v0_ix (b : Fin 8) (n : Fin 256) (g k : Fin 128) : lidx_main_v0 (ix3 b n g) k = ix3 b n k := by
  funext a; match a with | ⟨0, _⟩ => rfl | ⟨1, _⟩ => rfl | ⟨2, _⟩ => rfl

/-- The right operand's index of the first dot product, at named coordinates. -/
theorem ridx_v0_ix (b : Fin 8) (n : Fin 256) (g k : Fin 128) : ridx_main_v0 (ix3 b n g) k = ix2 g k := by
  funext a; match a with | ⟨0, _⟩ => rfl | ⟨1, _⟩ => rfl

/-- The bias of the first map is read at the feature coordinate. -/
theorem bias_v1_ix (b : Fin 8) (n : Fin 256) (g : Fin 128) : idx_main_v1 (idx_main_v2 (ix3 b n g)) = ix1 g := by
  funext a; match a with | ⟨0, _⟩ => rfl

/-- The node's own message: the affine form of its row under `W`. -/
theorem v3_at (x0 : (⟨S8x256x128, .f32⟩ : BufTy).Contents (Elt Ideal)) (x3 : (⟨S128x128, .f32⟩ : BufTy).Contents (Elt Ideal))
    (x4 : (⟨S128, .f32⟩ : BufTy).Contents (Elt Ideal)) (b : Fin 8) (n : Fin 256) (g : Fin 128) :
    val_main_v3 (F := Ideal) x0 x3 x4 (ix3 b n g)
      = GraphGru.affine (fun f => x0 (ix3 b n f)) (fun f => x3 (ix2 g f)) (x4 (ix1 g)) := by
  rw [val_main_v3_apply, val_main_v0_apply, val_main_v2_apply, val_main_v1_apply, bias_v1_ix]
  simp only [lidx_v0_ix, ridx_v0_ix, Ideal.addf_def]
  rfl

/-- The left operand's index of the second dot product, at named coordinates. -/
theorem lidx_v4_ix (b : Fin 8) (n : Fin 256) (g k : Fin 128) : lidx_main_v4 (ix3 b n g) k = ix3 b n k := by
  funext a; match a with | ⟨0, _⟩ => rfl | ⟨1, _⟩ => rfl | ⟨2, _⟩ => rfl

/-- The right operand's index of the second dot product, at named coordinates. -/
theorem ridx_v4_ix (b : Fin 8) (n : Fin 256) (g k : Fin 128) : ridx_main_v4 (ix3 b n g) k = ix2 g k := by
  funext a; match a with | ⟨0, _⟩ => rfl | ⟨1, _⟩ => rfl

/-- The bias of the second map is read at the feature coordinate. -/
theorem bias_v5_ix (b : Fin 8) (n : Fin 256) (g : Fin 128) : idx_main_v5 (idx_main_v6 (ix3 b n g)) = ix1 g := by
  funext a; match a with | ⟨0, _⟩ => rfl

/-- A neighbour's transformed feature: the affine form of its row under `M`. -/
theorem v7_at (x1 : (⟨S8x256x128, .f32⟩ : BufTy).Contents (Elt Ideal)) (x5 : (⟨S128x128, .f32⟩ : BufTy).Contents (Elt Ideal))
    (x6 : (⟨S128, .f32⟩ : BufTy).Contents (Elt Ideal)) (b : Fin 8) (j : Fin 256) (g : Fin 128) :
    val_main_v7 (F := Ideal) x1 x5 x6 (ix3 b j g)
      = GraphGru.affine (fun f => x1 (ix3 b j f)) (fun f => x5 (ix2 g f)) (x6 (ix1 g)) := by
  rw [val_main_v7_apply, val_main_v4_apply, val_main_v6_apply, val_main_v5_apply, bias_v5_ix]
  simp only [lidx_v4_ix, ridx_v4_ix, Ideal.addf_def]
  rfl

/-! ## The masked product and its maximum over the neighbours -/

/-- The transformed features are repeated along the node axis: entry (b, n, j, g) reads neighbour j. -/
theorem nb_ix (b : Fin 8) (n j : Fin 256) (g : Fin 128) : idx_main_v8 (idx_main_v10 (ix4 b n j g)) = ix3 b j g := by
  funext a; match a with | ⟨0, _⟩ => rfl | ⟨1, _⟩ => rfl | ⟨2, _⟩ => rfl

/-- The edge weights are repeated along the feature axis: entry (b, n, j, g) reads edge (b, n, j). -/
theorem edge_ix (b : Fin 8) (n j : Fin 256) (g : Fin 128) : idx_main_v9 (idx_main_v11 (ix4 b n j g)) = ix3 b n j := by
  funext a; match a with | ⟨0, _⟩ => rfl | ⟨1, _⟩ => rfl | ⟨2, _⟩ => rfl

/-- The masked product at (b, n, j, g): neighbour j's transformed feature g times the edge weight (b, n, j). -/
theorem v12_at (x1 : (⟨S8x256x128, .f32⟩ : BufTy).Contents (Elt Ideal)) (x2 : (⟨S8x256x256, .f32⟩ : BufTy).Contents (Elt Ideal))
    (x5 : (⟨S128x128, .f32⟩ : BufTy).Contents (Elt Ideal)) (x6 : (⟨S128, .f32⟩ : BufTy).Contents (Elt Ideal))
    (b : Fin 8) (n j : Fin 256) (g : Fin 128) :
    val_main_v12 (F := Ideal) x1 x2 x5 x6 (ix4 b n j g)
      = GraphGru.affine (fun f => x1 (ix3 b j f)) (fun f => x5 (ix2 g f)) (x6 (ix1 g)) * x2 (ix3 b n j) := by
  rw [val_main_v12_apply, val_main_v10_apply, val_main_v8_apply, nb_ix, v7_at, val_main_v11_apply, val_main_v9_apply, edge_ix]
  rfl

/-- The shape relation of dropping the neighbour axis. -/
theorem reduces_nb : S8x256x256x128.Reduces [2] S8x256x128 := by decide

/-- Inserting neighbour coordinate j into (b, n, g) gives (b, n, j, g). -/
theorem lift_ix (b : Fin 8) (n : Fin 256) (g : Fin 128) (j : Fin 256) :
    reduces_nb.lift (ix3 b n g) j = ix4 b n j g := by
  funext a; match a with | ⟨0, _⟩ => rfl | ⟨1, _⟩ => rfl | ⟨2, _⟩ => rfl | ⟨3, _⟩ => rfl

/-- The pooled message: the maximum over the neighbours, from the word of −∞. -/
theorem v13_at (x1 : (⟨S8x256x128, .f32⟩ : BufTy).Contents (Elt Ideal)) (x2 : (⟨S8x256x256, .f32⟩ : BufTy).Contents (Elt Ideal))
    (x5 : (⟨S128x128, .f32⟩ : BufTy).Contents (Elt Ideal)) (x6 : (⟨S128, .f32⟩ : BufTy).Contents (Elt Ideal))
    (b : Fin 8) (n : Fin 256) (g : Fin 128) :
    val_main_v13 (F := Ideal) x1 x2 x5 x6 (ix3 b n g)
      = GraphGru.pooled (fun j f => x1 (ix3 b j f)) (fun j => x2 (ix3 b n j)) (fun g f => x5 (ix2 g f))
          (fun g => x6 (ix1 g)) g := by
  unfold val_main_v13
  rw [Host.reduce_eq_fold_single (FloatOps.maximumf (F := Ideal) (φ := .f32)) _ _ _ reduces_nb]
  unfold GraphGru.pooled
  have hterm : (val_main_v12 (F := Ideal) x1 x2 x5 x6 ∘ reduces_nb.lift (ix3 b n g))
      = fun j : Fin 256 => GraphGru.affine (fun f => x1 (ix3 b j f)) (fun f => x5 (ix2 g f)) (x6 (ix1 g)) * x2 (ix3 b n j) := by
    exact funext fun (j : Fin 256) =>
      (congrArg (val_main_v12 (F := Ideal) x1 x2 x5 x6) (lift_ix b n g j)).trans (v12_at x1 x2 x5 x6 b n j g)
  rw [hterm]
  rfl

/-! ## The rectified message -/

/-- The cell's input at (b, n, g): the rectified sum of the node's own message and the pooled one. -/
theorem v15_at (x0 x1 : (⟨S8x256x128, .f32⟩ : BufTy).Contents (Elt Ideal)) (x2 : (⟨S8x256x256, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (b : Fin 8) (n : Fin 256) (g : Fin 128) :
    val_main_v15 (F := Ideal) x0 x1 x2 x3 x4 x5 x6 (ix3 b n g)
      = GraphGru.act (fun f => x0 (ix3 b n f)) (fun j f => x1 (ix3 b j f)) (fun j => x2 (ix3 b n j))
          (fun g f => x3 (ix2 g f)) (fun g => x4 (ix1 g)) (fun g f => x5 (ix2 g f)) (fun g => x6 (ix1 g)) g := by
  rw [val_main_v15_apply, val_main_v14_apply, v3_at, v13_at, val_main_call0_v0_apply, val_main_call0_cst_apply]
  rfl

/-! ## The flattened arrays: row `b * 256 + n` is node (b, n) -/

/-- Row `b * 256 + n` of an array flattened to 2048 rows. -/
abbrev row (b : Fin 8) (n : Fin 256) : Fin 2048 := ⟨b.val * 256 + n.val, by have := b.isLt; have := n.isLt; omega⟩

/-- Entry (b * 256 + n, f) of the flattened message array is entry (b, n, f). -/
theorem flat16_ix (b : Fin 8) (n : Fin 256) (f : Fin 128) : idx_main_v16 (ix2 (row b n) f) = ix3 b n f := by
  have hb := b.isLt; have hn := n.isLt; have hf := f.isLt
  funext a
  refine Fin.ext ?_
  match a with
  | ⟨0, _⟩ => show ((b.val * 256 + n.val) * 128 + f.val) / 32768 = b.val; omega
  | ⟨1, _⟩ => show ((b.val * 256 + n.val) * 128 + f.val) / 128 % 256 = n.val; omega
  | ⟨2, _⟩ => show ((b.val * 256 + n.val) * 128 + f.val) % 128 = f.val; omega

/-- Entry (b * 256 + n, f) of the flattened hidden array is entry (b, n, f). -/
theorem flat17_ix (b : Fin 8) (n : Fin 256) (f : Fin 128) : idx_main_v17 (ix2 (row b n) f) = ix3 b n f := by
  have hb := b.isLt; have hn := n.isLt; have hf := f.isLt
  funext a
  refine Fin.ext ?_
  match a with
  | ⟨0, _⟩ => show ((b.val * 256 + n.val) * 128 + f.val) / 32768 = b.val; omega
  | ⟨1, _⟩ => show ((b.val * 256 + n.val) * 128 + f.val) / 128 % 256 = n.val; omega
  | ⟨2, _⟩ => show ((b.val * 256 + n.val) * 128 + f.val) % 128 = f.val; omega

/-- Entry (b, n, g) of the result is entry (b * 256 + n, g) of the flat result. -/
theorem flat56_ix (b : Fin 8) (n : Fin 256) (g : Fin 128) : idx_main_v56 (ix3 b n g) = ix2 (row b n) g := by
  have hb := b.isLt; have hn := n.isLt; have hg := g.isLt
  funext a
  refine Fin.ext ?_
  match a with
  | ⟨0, _⟩ => show ((b.val * 256 + n.val) * 128 + g.val) / 128 = b.val * 256 + n.val; omega
  | ⟨1, _⟩ => show ((b.val * 256 + n.val) * 128 + g.val) % 128 = g.val; omega

/-! ## The gate pre-activations -/

/-- The input-side dot product's left index. -/
theorem lidx_v19_ix (r : Fin 2048) (k : Fin 384) (f : Fin 128) : lidx_main_v19 (ix2 r k) f = ix2 r f := by
  funext a; match a with | ⟨0, _⟩ => rfl | ⟨1, _⟩ => rfl

/-- The input-side dot product's right index, through the transposition of the weights. -/
theorem ridx_v19_ix (r : Fin 2048) (k : Fin 384) (f : Fin 128) : idx_main_v18 (ridx_main_v19 (ix2 r k) f) = ix2 k f := by
  funext a; match a with | ⟨0, _⟩ => rfl | ⟨1, _⟩ => rfl

/-- The input-side bias is read at the gate coordinate. -/
theorem bias_v20_ix (r : Fin 2048) (k : Fin 384) : idx_main_v20 (idx_main_v21 (ix2 r k)) = ix1 k := by
  funext a; match a with | ⟨0, _⟩ => rfl

/-- The hidden-side dot product's left index. -/
theorem lidx_v24_ix (r : Fin 2048) (k : Fin 384) (f : Fin 128) : lidx_main_v24 (ix2 r k) f = ix2 r f := by
  funext a; match a with | ⟨0, _⟩ => rfl | ⟨1, _⟩ => rfl

/-- The hidden-side dot product's right index, through the transposition of the weights. -/
theorem ridx_v24_ix (r : Fin 2048) (k : Fin 384) (f : Fin 128) : idx_main_v23 (ridx_main_v24 (ix2 r k) f) = ix2 k f := by
  funext a; match a with | ⟨0, _⟩ => rfl | ⟨1, _⟩ => rfl

/-- The hidden-side bias is read at the gate coordinate. -/
theorem bias_v25_ix (r : Fin 2048) (k : Fin 384) : idx_main_v25 (idx_main_v26 (ix2 r k)) = ix1 k := by
  funext a; match a with | ⟨0, _⟩ => rfl

/-- Gate row k on the input side: the affine form of the rectified message row of node (b, n). -/
theorem v22_at (x0 x1 : (⟨S8x256x128, .f32⟩ : BufTy).Contents (Elt Ideal)) (x2 : (⟨S8x256x256, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S384x128, .f32⟩ : BufTy).Contents (Elt Ideal)) (x9 : (⟨S384, .f32⟩ : BufTy).Contents (Elt Ideal))
    (b : Fin 8) (n : Fin 256) (k : Fin 384) :
    val_main_v22 (F := Ideal) x0 x1 x2 x3 x4 x5 x6 x7 x9 (ix2 (row b n) k)
      = GraphGru.affine
          (GraphGru.act (fun f => x0 (ix3 b n f)) (fun j f => x1 (ix3 b j f)) (fun j => x2 (ix3 b n j))
            (fun g f => x3 (ix2 g f)) (fun g => x4 (ix1 g)) (fun g f => x5 (ix2 g f)) (fun g => x6 (ix1 g)))
          (fun f => x7 (ix2 k f)) (x9 (ix1 k)) := by
  rw [val_main_v22_apply, val_main_v19_apply, val_main_v21_apply, val_main_v20_apply, bias_v20_ix]
  simp only [lidx_v19_ix, val_main_v16_apply, flat16_ix, v15_at, val_main_v18_apply, ridx_v19_ix, Ideal.addf_def]
  rfl

/-- Gate row k on the hidden side: the affine form of the node's own row. -/
theorem v27_at (x0 : (⟨S8x256x128, .f32⟩ : BufTy).Contents (Elt Ideal)) (x8 : (⟨S384x128, .f32⟩ : BufTy).Contents (Elt Ideal))
    (x10 : (⟨S384, .f32⟩ : BufTy).Contents (Elt Ideal)) (b : Fin 8) (n : Fin 256) (k : Fin 384) :
    val_main_v27 (F := Ideal) x0 x8 x10 (ix2 (row b n) k)
      = GraphGru.affine (fun f => x0 (ix3 b n f)) (fun f => x8 (ix2 k f)) (x10 (ix1 k)) := by
  rw [val_main_v27_apply, val_main_v24_apply, val_main_v26_apply, val_main_v25_apply, bias_v25_ix]
  simp only [lidx_v24_ix, val_main_v17_apply, flat17_ix, val_main_v23_apply, ridx_v24_ix, Ideal.addf_def]
  rfl

/-! ## The three gate blocks: columns g, 128 + g and 256 + g of the 384 gate columns -/

/-- Gate row k on the input side for node (b, n), as a function of the argument arrays. -/
abbrev gI (x0 x1 : (⟨S8x256x128, .f32⟩ : BufTy).Contents (Elt Ideal)) (x2 : (⟨S8x256x256, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S384x128, .f32⟩ : BufTy).Contents (Elt Ideal)) (x9 : (⟨S384, .f32⟩ : BufTy).Contents (Elt Ideal))
    (b : Fin 8) (n : Fin 256) (k : Fin 384) : EReal :=
  GraphGru.affine
    (GraphGru.act (fun f => x0 (ix3 b n f)) (fun j f => x1 (ix3 b j f)) (fun j => x2 (ix3 b n j))
      (fun g f => x3 (ix2 g f)) (fun g => x4 (ix1 g)) (fun g f => x5 (ix2 g f)) (fun g => x6 (ix1 g)))
    (fun f => x7 (ix2 k f)) (x9 (ix1 k))

/-- Gate row k on the hidden side for node (b, n), as a function of the argument arrays. -/
abbrev gH (x0 : (⟨S8x256x128, .f32⟩ : BufTy).Contents (Elt Ideal)) (x8 : (⟨S384x128, .f32⟩ : BufTy).Contents (Elt Ideal))
    (x10 : (⟨S384, .f32⟩ : BufTy).Contents (Elt Ideal)) (b : Fin 8) (n : Fin 256) (k : Fin 384) : EReal :=
  GraphGru.affine (fun f => x0 (ix3 b n f)) (fun f => x8 (ix2 k f)) (x10 (ix1 k))

/-- The reset block of the input side: column g. -/
theorem slice28_ix (r : Fin 2048) (g : Fin 128) : idx_main_v28 (ix2 r g) = ix2 r (GraphGru.gateR g) := by
  funext a; match a with | ⟨0, _⟩ => rfl | ⟨1, _⟩ => rfl
/-- The update block of the input side: column 128 + g. -/
theorem slice29_ix (r : Fin 2048) (g : Fin 128) : idx_main_v29 (ix2 r g) = ix2 r (GraphGru.gateZ g) := by
  funext a; match a with | ⟨0, _⟩ => rfl | ⟨1, _⟩ => rfl
/-- The candidate block of the input side: column 256 + g. -/
theorem slice30_ix (r : Fin 2048) (g : Fin 128) : idx_main_v30 (ix2 r g) = ix2 r (GraphGru.gateN g) := by
  funext a; match a with | ⟨0, _⟩ => rfl | ⟨1, _⟩ => rfl
/-- The reset block of the hidden side: column g. -/
theorem slice31_ix (r : Fin 2048) (g : Fin 128) : idx_main_v31 (ix2 r g) = ix2 r (GraphGru.gateR g) := by
  funext a; match a with | ⟨0, _⟩ => rfl | ⟨1, _⟩ => rfl
/-- The update block of the hidden side: column 128 + g. -/
theorem slice32_ix (r : Fin 2048) (g : Fin 128) : idx_main_v32 (ix2 r g) = ix2 r (GraphGru.gateZ g) := by
  funext a; match a with | ⟨0, _⟩ => rfl | ⟨1, _⟩ => rfl
/-- The candidate block of the hidden side: column 256 + g. -/
theorem slice33_ix (r : Fin 2048) (g : Fin 128) : idx_main_v33 (ix2 r g) = ix2 r (GraphGru.gateN g) := by
  funext a; match a with | ⟨0, _⟩ => rfl | ⟨1, _⟩ => rfl

/-- The quotient `1 / (1 + exp (−s))` written with the word of 1 is the logistic function: the word is the real 1. -/
theorem sigmoid_word (s : EReal) :
    Ideal.div (Ideal.ofBits .f32 0x3F800000#32) (Ideal.ofBits .f32 0x3F800000#32 + Ideal.exp (-s)) = Ideal.logistic s := by
  rw [Ideal.ofBits_one_f32]; rfl

/-- The reset gate of node (b, n) at feature g. -/
theorem v40_at (x0 x1 : (⟨S8x256x128, .f32⟩ : BufTy).Contents (Elt Ideal)) (x2 : (⟨S8x256x256, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 x8 : (⟨S384x128, .f32⟩ : BufTy).Contents (Elt Ideal)) (x9 x10 : (⟨S384, .f32⟩ : BufTy).Contents (Elt Ideal))
    (b : Fin 8) (n : Fin 256) (g : Fin 128) :
    val_main_v40 (F := Ideal) x0 x1 x2 x3 x4 x5 x6 x7 x8 x9 x10 (ix2 (row b n) g)
      = Ideal.logistic (gI x0 x1 x2 x3 x4 x5 x6 x7 x9 b n (GraphGru.gateR g) + gH x0 x8 x10 b n (GraphGru.gateR g)) := by
  rw [val_main_v40_apply, val_main_v39_apply, val_main_cst_1_apply, val_main_v38_apply, val_main_v37_apply,
    val_main_cst_0_apply, val_main_v36_apply, val_main_v35_apply, val_main_v34_apply, val_main_v28_apply, slice28_ix,
    v22_at, val_main_v31_apply, slice31_ix, v27_at]
  exact sigmoid_word _

/-- The update gate of node (b, n) at feature g. -/
theorem v47_at (x0 x1 : (⟨S8x256x128, .f32⟩ : BufTy).Contents (Elt Ideal)) (x2 : (⟨S8x256x256, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 x8 : (⟨S384x128, .f32⟩ : BufTy).Contents (Elt Ideal)) (x9 x10 : (⟨S384, .f32⟩ : BufTy).Contents (Elt Ideal))
    (b : Fin 8) (n : Fin 256) (g : Fin 128) :
    val_main_v47 (F := Ideal) x0 x1 x2 x3 x4 x5 x6 x7 x8 x9 x10 (ix2 (row b n) g)
      = Ideal.logistic (gI x0 x1 x2 x3 x4 x5 x6 x7 x9 b n (GraphGru.gateZ g) + gH x0 x8 x10 b n (GraphGru.gateZ g)) := by
  rw [val_main_v47_apply, val_main_v46_apply, val_main_cst_3_apply, val_main_v45_apply, val_main_v44_apply,
    val_main_cst_2_apply, val_main_v43_apply, val_main_v42_apply, val_main_v41_apply, val_main_v29_apply, slice29_ix,
    v22_at, val_main_v32_apply, slice32_ix, v27_at]
  exact sigmoid_word _

/-- The candidate state of node (b, n) at feature g. -/
theorem v50_at (x0 x1 : (⟨S8x256x128, .f32⟩ : BufTy).Contents (Elt Ideal)) (x2 : (⟨S8x256x256, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 x8 : (⟨S384x128, .f32⟩ : BufTy).Contents (Elt Ideal)) (x9 x10 : (⟨S384, .f32⟩ : BufTy).Contents (Elt Ideal))
    (b : Fin 8) (n : Fin 256) (g : Fin 128) :
    val_main_v50 (F := Ideal) x0 x1 x2 x3 x4 x5 x6 x7 x8 x9 x10 (ix2 (row b n) g)
      = Ideal.tanh (gI x0 x1 x2 x3 x4 x5 x6 x7 x9 b n (GraphGru.gateN g)
          + Ideal.logistic (gI x0 x1 x2 x3 x4 x5 x6 x7 x9 b n (GraphGru.gateR g) + gH x0 x8 x10 b n (GraphGru.gateR g))
            * gH x0 x8 x10 b n (GraphGru.gateN g)) := by
  rw [val_main_v50_apply, val_main_v49_apply, val_main_v30_apply, slice30_ix, v22_at, val_main_v48_apply, v40_at,
    val_main_v33_apply, slice33_ix, v27_at]
  rfl

/-! ## The cell's output and the whole layer -/

/-- The program's result at (b, n, g) is the node update of node (b, n) at feature g. -/
theorem v56_at (x0 x1 : (⟨S8x256x128, .f32⟩ : BufTy).Contents (Elt Ideal)) (x2 : (⟨S8x256x256, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 x8 : (⟨S384x128, .f32⟩ : BufTy).Contents (Elt Ideal)) (x9 x10 : (⟨S384, .f32⟩ : BufTy).Contents (Elt Ideal))
    (b : Fin 8) (n : Fin 256) (g : Fin 128) :
    val_main_v56 (F := Ideal) x0 x1 x2 x3 x4 x5 x6 x7 x8 x9 x10 (ix3 b n g)
      = GraphGru.nodeUpdate (fun f => x0 (ix3 b n f)) (fun j f => x1 (ix3 b j f)) (fun j => x2 (ix3 b n j))
          (fun g f => x3 (ix2 g f)) (fun g => x4 (ix1 g)) (fun g f => x5 (ix2 g f)) (fun g => x6 (ix1 g))
          (fun k f => x7 (ix2 k f)) (fun k => x9 (ix1 k)) (fun k f => x8 (ix2 k f)) (fun k => x10 (ix1 k)) g := by
  rw [val_main_v56_apply, flat56_ix, val_main_v55_apply, val_main_v53_apply, val_main_v54_apply, val_main_v52_apply,
    val_main_v51_apply, val_main_cst_4_apply, v47_at, v50_at, val_main_v17_apply, flat17_ix]
  rfl

/-- The whole-array program is the layer. -/
theorem reference_is_layer (x0 x1 : (⟨S8x256x128, .f32⟩ : BufTy).Contents (Elt Ideal)) (x2 : (⟨S8x256x256, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 x8 : (⟨S384x128, .f32⟩ : BufTy).Contents (Elt Ideal)) (x9 x10 : (⟨S384, .f32⟩ : BufTy).Contents (Elt Ideal)) :
    Cert.ReferenceIdeal.Read.val_main_v56 (F := Ideal) x0 x1 x2 x3 x4 x5 x6 x7 x8 x9 x10
      = GraphGru.layer x0 x1 x2 x3 x4 x5 x6 x7 x8 x9 x10 := by
  funext i
  obtain ⟨b, n, g, rfl⟩ : ∃ (b : Fin 8) (n : Fin 256) (g : Fin 128), i = ix3 b n g := ⟨i 0, i 1, i 2, eq_ix3 i⟩
  exact (v56_at x0 x1 x2 x3 x4 x5 x6 x7 x8 x9 x10 b n g).trans
    (GraphGru.layer_ix3 x0 x1 x2 x3 x4 x5 x6 x7 x8 x9 x10 b n g).symm

end Cert.ReferenceIdeal.RefValue

end
-- ==== Proof.lean ====
/-
  A message-passing layer with a gated recurrent cell, computed tile by tile, equals the same layer on whole arrays.

  Both programs take node features x1, neighbour features x2 (both [8, 256, 128]), edge weights [8, 256, 256], two
  affine maps and the weights of a gated recurrent cell.  For node n of batch b they form
  m₁ = W x1[b,n] + bW, the pooled message m₂ = max over neighbours j (from −∞) of (M x2[b,j] + bM) · edge[b,n,j],
  the rectified x = max(m₁ + m₂, 0), and return the cell's new hidden state (1 − z) · ñ + z · x1[b,n] with
  r = σ(i_r + h_r), z = σ(i_z + h_z), ñ = tanh(i_n + r · h_n), where i = Wi x + bi and h = Wh x1[b,n] + bh.
  On the extended reals with exact operations both programs apply these operations in the same order to the same
  operands; they differ only in how the arrays are cut (the kernel works on 64-node tiles and reduces the maximum along
  the last axis of a transposed product; the reference flattens the batch for the cell) and in how the sigmoid is
  spelt (one operation against 1 / (1 + e^(−s)), which are the same function).  `GraphGru.layer` (Proof/Spec.lean) is
  that common function; Proof/KernelNode.lean reads the kernel body's arithmetic at a block entry as one node's update,
  Proof/KernelLayer.lean carries it from blocks to the whole result array, Proof/RefLayer.lean reads the reference's
  result as the layer, and the claims below put the two runs side by side.
-/
import proofs.«157754_j4861902979305_1_alg».proof.Defs
import proofs.«157754_j4861902979305_1_alg».proof.Proof.Gen.Kernel
import proofs.«157754_j4861902979305_1_alg».proof.Proof.Gen.Kernel.Skeleton
import proofs.«157754_j4861902979305_1_alg».proof.Proof.Gen.Kernel.Launch
import proofs.«157754_j4861902979305_1_alg».proof.Proof.Gen.Kernel.Points
import proofs.«157754_j4861902979305_1_alg».proof.Proof.Gen.Kernel.Frame
import proofs.«157754_j4861902979305_1_alg».proof.Proof.Gen.KernelIdeal
import proofs.«157754_j4861902979305_1_alg».proof.Proof.Gen.KernelIdeal.Skeleton
import proofs.«157754_j4861902979305_1_alg».proof.Proof.Gen.KernelIdeal.Launch
import proofs.«157754_j4861902979305_1_alg».proof.Proof.Gen.KernelIdeal.Points
import proofs.«157754_j4861902979305_1_alg».proof.Proof.Gen.KernelIdeal.Frame
import proofs.«157754_j4861902979305_1_alg».proof.Proof.Gen.ReferenceIdeal
import proofs.«157754_j4861902979305_1_alg».proof.Proof.Gen.Pre_finite_inputs
import proofs.«157754_j4861902979305_1_alg».proof.Proof.Gen.KernelIdeal.Value
import proofs.«157754_j4861902979305_1_alg».proof.Proof.Gen.ReferenceIdeal.Run
import proofs.«157754_j4861902979305_1_alg».proof.Proof.Gen.ReferenceIdeal.Read
import proofs.«157754_j4861902979305_1_alg».proof.Proof.Spec
import proofs.«157754_j4861902979305_1_alg».proof.Proof.KernelLayer
import proofs.«157754_j4861902979305_1_alg».proof.Proof.RefLayer
import Idealize.ShloMosaic.Adequacy
import Idealize.ShloMosaic.Init

noncomputable section

namespace Cert.Proof.LayerClaims

open Idealize.ShloMosaic Idealize.SL.Sem

/-- The word-level kernel's frame: generated whole. -/
theorem frame_k : Cert.frame_Kernel := fun m ρ _ => Cert.Kernel.Gen.frame m ρ
/-- The exact kernel's frame: generated whole. -/
theorem frame_ki : Cert.frame_KernelIdeal := fun m ρ _ => Cert.KernelIdeal.Gen.frame m ρ
/-- The reference's frame: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No rewrite was applied when the exact kernel was printed: nothing to preserve. -/
theorem preserves : Cert.preserves_Kernel_KernelIdeal := trivial

/-- Both exact programs end with the layer of the argument arrays in their result: the kernel tile by tile, the
    reference on whole arrays; the arguments agree, so the results do, entry by entry. -/
theorem algebraic : Cert.algebraic_KernelIdeal_ReferenceIdeal := by
  intro m ρ m' ρ' _ hagree
  refine ⟨fun c => Cert.KernelIdeal.LayerValue.L m c, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq, Cert.ReferenceIdeal.RefValue.reference_is_layer]
  obtain ⟨e0, e1, e2, e3, e4, e5, e6, e7, e8, e9, e10⟩ := hagree c
  rw [e0, e1, e2, e3, e4, e5, e6, e7, e8, e9, e10]

end Cert.Proof.LayerClaims

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    LayerClaims.frame_k, LayerClaims.frame_ki, LayerClaims.frame_ri, LayerClaims.preserves, LayerClaims.algebraic⟩

end Cert.Proof

end
